-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x768 : Shape := ⟨2, ![32000, 768]⟩
abbrev S32000x4096 : Shape := ⟨2, ![32000, 4096]⟩
abbrev S512x768 : Shape := ⟨2, ![512, 768]⟩
abbrev S4096x512 : Shape := ⟨2, ![4096, 512]⟩
abbrev S512 : Shape := ⟨1, ![512]⟩
abbrev S4x2048 : Shape := ⟨2, ![4, 2048]⟩
abbrev S_ : Shape := ⟨0, ![]⟩

class Facts : Prop where
  bcast_S_S32000x768 : S_.BroadcastsInDim S32000x768 (![] : Fin 0 → Fin S32000x768.rank)
  reducesTo_S32000x768_S_d0_1 : S32000x768.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S512x768 : S_.BroadcastsInDim S512x768 (![] : Fin 0 → Fin S512x768.rank)
  reducesTo_S512x768_S_d0_1 : S512x768.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S4x2048 : S_.BroadcastsInDim S4x2048 (![] : Fin 0 → Fin S4x2048.rank)
  reducesTo_S4x2048_S_d0_1 : S4x2048.ReducesTo [0, 1] S_

variable [Facts]

def fn_part2 {F : FTy → Type} [FloatOps F] (main_v28 : IVec S_ 1) (main_v33 : IVec S4x2048 1) : IVec S_ 1 :=
  let main_c_12 : IVec S_ 1 := constantI S_ 1 1#1
  let main_v34 : IVec S_ 1 := (fun x v => Host.reduce IntOp.andi x v reducesTo_S4x2048_S_d0_1 h_S_) main_v33 main_c_12
  let main_v35 : IVec S_ 1 := andi main_v28 main_v34
  main_v35

def fn_part1 {F : FTy → Type} [FloatOps F] (main_arg4 : FVec F S512 .f32) (main_arg5 : FVec F S512 .f32) (main_arg6 : IVec S4x2048 32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 4294935296#32
  let main_v29 : IVec S4x2048 32 := broadcastInDim S4x2048 ![] bcast_S_S4x2048 main_c_10
  let main_v30 : IVec S4x2048 1 := cmpi .sge main_arg6 main_v29
  let main_c_11 : IVec S_ 32 := constantI S_ 32 32000#32
  let main_v31 : IVec S4x2048 32 := broadcastInDim S4x2048 ![] bcast_S_S4x2048 main_c_11
  let main_v32 : IVec S4x2048 1 := cmpi .slt main_arg6 main_v31
  let main_v33 : IVec S4x2048 1 := andi main_v30 main_v32
  fn_part2 (F := F) main_v28 main_v33

def fn {F : FTy → Type} [FloatOps F] (main_arg0 : FVec F S32000x768 .f32) (main_arg1 : FVec F S32000x4096 .f32) (main_arg2 : FVec F S512x768 .f32) (main_arg3 : FVec F S4096x512 .f32) (main_arg4 : FVec F S512 .f32) (main_arg5 : FVec F S512 .f32) (main_arg6 : IVec S4x2048 32) : IVec S_ 1 :=
  let main_v0 : FVec F S32000x768 .f32 := Host.absf main_arg0
  let main_cst : FVec F S_ .f32 := constant S_ .f32 0x7F800000#32
  let main_v1 : FVec F S32000x768 .f32 := broadcastInDim S32000x768 ![] bcast_S_S32000x768 main_cst
  let main_v2 : IVec S32000x768 1 := cmpf .olt main_v0 main_v1
  let main_c : IVec S_ 1 := constantI S_ 1 1#1
  let main_v3 : IVec S_ 1 := (fun x v => Host.reduce IntOp.andi x v reducesTo_S32000x768_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Kernel.lean ====
abbrev S32000x768 : Shape := ⟨2, ![32000, 768]⟩
abbrev S32000x4096 : Shape := ⟨2, ![32000, 4096]⟩
abbrev S512x768 : Shape := ⟨2, ![512, 768]⟩
abbrev S4096x512 : Shape := ⟨2, ![4096, 512]⟩
abbrev S512 : Shape := ⟨1, ![512]⟩
abbrev S4x2048 : Shape := ⟨2, ![4, 2048]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x768 : Shape := ⟨2, ![8192, 768]⟩
abbrev S8192x4096 : Shape := ⟨2, ![8192, 4096]⟩
abbrev S256x768 : Shape := ⟨2, ![256, 768]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S4x2048x4096 : Shape := ⟨3, ![4, 2048, 4096]⟩

abbrev nBuf : Space → Nat
  | .hbm => 58
  | .vmem => 10
  | .smem => 0
  | _ => 0

abbrev bufTy : (tb : Table) → Fin (tcTables nBuf tb) → BufTy
  | .hbm, ⟨0, _⟩ => ⟨S32000x768, .f32⟩
  | .hbm, ⟨1, _⟩ => ⟨S32000x4096, .f32⟩
  | .hbm, ⟨2, _⟩ => ⟨S512x768, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4x2048, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S1, .i32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S1x1, .i32⟩
  | .hbm, ⟨21, _⟩ => ⟨S8192x1, .i32⟩
  | .hbm, ⟨22, _⟩ => ⟨S8192x1, .i1⟩
  | .hbm, ⟨23, _⟩ => ⟨S8192x1, .i1⟩
  | .hbm, ⟨24, _⟩ => ⟨S_, .i1⟩
  | .hbm, ⟨25, _⟩ => ⟨S8192, .i1⟩
  | .hbm, ⟨26, _⟩ => ⟨S8192x768, .f32⟩
  | .hbm, ⟨27, _⟩ => ⟨S8192x768, .i1⟩
  | .hbm, ⟨28, _⟩ => ⟨S_, .f32⟩
  | .hbm, ⟨29, _⟩ => ⟨S8192x768, .f32⟩
  | .hbm, ⟨30, _⟩ => ⟨S8192x768, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S1, .i32⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S1x1, .i32⟩
  | .hbm, ⟨44, _⟩ => ⟨S8192x1, .i32⟩
  | .hbm, ⟨45, _⟩ => ⟨S8192x1, .i1⟩
  | .hbm, ⟨46, _⟩ => ⟨S8192x1, .i1⟩
  | .hbm, ⟨47, _⟩ => ⟨S_, .i1⟩
  | .hbm, ⟨48, _⟩ => ⟨S8192, .i1⟩
  | .hbm, ⟨49, _⟩ => ⟨S8192x4096, .f32⟩
  | .hbm, ⟨50, _⟩ => ⟨S8192x4096, .i1⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S512x768, .bf16⟩
  | .hbm, ⟨55, _⟩ => ⟨S4096x512, .bf16⟩
  | .hbm, ⟨56, _⟩ => ⟨S8192x4096, .f32⟩
  | .hbm, ⟨57, _⟩ => ⟨S4x2048x4096, .f32⟩
  | .local _ .vmem, ⟨0, _⟩ => ⟨S256x768, .f32⟩
  | .local _ .vmem, ⟨1, _⟩ => ⟨S256x768, .f32⟩
  | .local _ .vmem, ⟨2, _⟩ => ⟨S256x4096, .f32⟩
  | .local _ .vmem, ⟨3, _⟩ => ⟨S256x4096, .f32⟩
  | .local _ .vmem, ⟨4, _⟩ => ⟨S512x768, .bf16⟩
  | .local _ .vmem, ⟨5, _⟩ => ⟨S4096x512, .bf16⟩
  | .local _ .vmem, ⟨6, _⟩ => ⟨S512, .f32⟩
  | .local _ .vmem, ⟨7, _⟩ => ⟨S512, .f32⟩
  | .local _ .vmem, ⟨8, _⟩ => ⟨S256x4096, .f32⟩
  | .local _ .vmem, ⟨9, _⟩ => ⟨S256x4096, .f32⟩
  | _, _ => ⟨S32000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  bcast_S8192_S8192x4096_0 : S8192.BroadcastsInDim S8192x4096 (![0] : Fin 1 → Fin S8192x4096.rank)
  bcast_S_S8192x4096 : S_.BroadcastsInDim S8192x4096 (![] : Fin 0 → Fin S8192x4096.rank)
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S256x512_S256 : S256x512.Reduces [1] S256
  shapeCasts_S256_S256x1 : S256.ShapeCasts S256x1
  broadcasts_S256x1_S256x512 : S256x1.Broadcasts S256x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S8192x4096_S4x2048x4096 : S8192x4096.ShapeCasts S4x2048x4096
  gather_S32000x768_S8192x1_S8192x768_1_0_n_n_0_1_1768_wf : GatherDims.WF S32000x768 S8192x1 S8192x768 [1] [0] [] [0] [] 1 ![1, 768]
  gather_S32000x4096_S8192x1_S8192x4096_1_0_n_n_0_1_14096_wf : GatherDims.WF S32000x4096 S8192x1 S8192x4096 [1] [0] [] [0] [] 1 ![1, 4096]
  dot_S256x768_S512x768_S256x512_1_1_0_0_n_n_wf : DotDims.WF S256x768 S512x768 S256x512 [1] [1] [0] [0] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .bf16 = 32 ∨ (Rect.block (s := S512x768) S512x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .f32 = 32 ∨ (Rect.block (s := S8192x4096) S256x4096.size (cc0_transform_6 i) (hinb0_6 i)).WholeWords (EltTy.packing .f32)

variable [Facts₀]

def gather_S32000x768_S8192x1_S8192x768_1_0_n_n_0_1_1768 : GatherDims S32000x768 S8192x1 S8192x768 where
  offsetDims := [1]
  collapsedSliceDims := [0]
  operandBatchingDims := []
  startIndicesBatchingDims := []
  startIndexMap := [0]
  indexVectorDim := 1
  sliceSizes := ![1, 768]
  wf := gather_S32000x768_S8192x1_S8192x768_1_0_n_n_0_1_1768_wf
def gather_S32000x4096_S8192x1_S8192x4096_1_0_n_n_0_1_14096 : GatherDims S32000x4096 S8192x1 S8192x4096 where
  offsetDims := [1]
  collapsedSliceDims := [0]
  operandBatchingDims := []
  startIndicesBatchingDims := []
  startIndexMap := [0]
  indexVectorDim := 1
  sliceSizes := ![1, 4096]
  wf := gather_S32000x4096_S8192x1_S8192x4096_1_0_n_n_0_1_14096_wf
def dot_S256x768_S512x768_S256x512_1_1_0_0_n_n : DotDims S256x768 S512x768 S256x512 where
  lhsContracting := [1]
  rhsContracting := [1]
  lhsNonContracting := [0]
  rhsNonContracting := [0]
  lhsBatch := []
  rhsBatch := []
  wf := dot_S256x768_S512x768_S256x512_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32000x768 : Shape := ⟨2, ![32000, 768]⟩
abbrev S32000x4096 : Shape := ⟨2, ![32000, 4096]⟩
abbrev S512x768 : Shape := ⟨2, ![512, 768]⟩
abbrev S4096x512 : Shape := ⟨2, ![4096, 512]⟩
abbrev S512 : Shape := ⟨1, ![512]⟩
abbrev S4x2048 : Shape := ⟨2, ![4, 2048]⟩
abbrev S32000x512 : Shape := ⟨2, ![32000, 512]⟩
abbrev S_ : Shape := ⟨0, ![]⟩
abbrev S32000 : Shape := ⟨1, ![32000]⟩
abbrev S32000x1 : Shape := ⟨2, ![32000, 1]⟩
abbrev S1x512 : Shape := ⟨2, ![1, 512]⟩
abbrev S4x2048x1 : Shape := ⟨3, ![4, 2048, 1]⟩
abbrev S4x2048x4096 : Shape := ⟨3, ![4, 2048, 4096]⟩

abbrev nBuf : Space → Nat
  | .hbm => 72
  | .vmem => 0
  | .smem => 0
  | _ => 0

abbrev bufTy : (tb : Table) → Fin (tcTables nBuf tb) → BufTy
  | .hbm, ⟨0, _⟩ => ⟨S32000x768, .f32⟩
  | .hbm, ⟨1, _⟩ => ⟨S32000x4096, .f32⟩
  | .hbm, ⟨2, _⟩ => ⟨S512x768, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4x2048, .i32⟩
  | .hbm, ⟨7, _⟩ => ⟨S32000x512, .f32⟩
  | .hbm, ⟨8, _⟩ => ⟨S_, .f32⟩
  | .hbm, ⟨9, _⟩ => ⟨S32000, .f32⟩
  | .hbm, ⟨10, _⟩ => ⟨S32000x1, .f32⟩
  | .hbm, ⟨11, _⟩ => ⟨S_, .f32⟩
  | .hbm, ⟨12, _⟩ => ⟨S32000x1, .f32⟩
  | .hbm, ⟨13, _⟩ => ⟨S32000x1, .f32⟩
  | .hbm, ⟨14, _⟩ => ⟨S32000x512, .f32⟩
  | .hbm, ⟨15, _⟩ => ⟨S32000x512, .f32⟩
  | .hbm, ⟨16, _⟩ => ⟨S32000x512, .f32⟩
  | .hbm, ⟨17, _⟩ => ⟨S_, .f32⟩
  | .hbm, ⟨18, _⟩ => ⟨S32000, .f32⟩
  | .hbm, ⟨19, _⟩ => ⟨S32000x1, .f32⟩
  | .hbm, ⟨20, _⟩ => ⟨S_, .f32⟩
  | .hbm, ⟨21, _⟩ => ⟨S32000x1, .f32⟩
  | .hbm, ⟨22, _⟩ => ⟨S32000x1, .f32⟩
  | .hbm, ⟨23, _⟩ => ⟨S32000x512, .f32⟩
  | .hbm, ⟨24, _⟩ => ⟨S32000x512, .f32⟩
  | .hbm, ⟨25, _⟩ => ⟨S_, .f32⟩
  | .hbm, ⟨26, _⟩ => ⟨S32000x1, .f32⟩
  | .hbm, ⟨27, _⟩ => ⟨S32000x1, .f32⟩
  | .hbm, ⟨28, _⟩ => ⟨S32000x1, .f32⟩
  | .hbm, ⟨29, _⟩ => ⟨S32000x512, .f32⟩
  | .hbm, ⟨30, _⟩ => ⟨S32000x512, .f32⟩
  | .hbm, ⟨31, _⟩ => ⟨S1x512, .f32⟩
  | .hbm, ⟨32, _⟩ => ⟨S32000x512, .f32⟩
  | .hbm, ⟨33, _⟩ => ⟨S32000x512, .f32⟩
  | .hbm, ⟨34, _⟩ => ⟨S1x512, .f32⟩
  | .hbm, ⟨35, _⟩ => ⟨S32000x512, .f32⟩
  | .hbm, ⟨36, _⟩ => ⟨S32000x512, .f32⟩
  | .hbm, ⟨37, _⟩ => ⟨S_, .f32⟩
  | .hbm, ⟨38, _⟩ => ⟨S32000x512, .f32⟩
  | .hbm, ⟨39, _⟩ => ⟨S32000x512, .i1⟩
  | .hbm, ⟨40, _⟩ => ⟨S_, .f32⟩
  | .hbm, ⟨41, _⟩ => ⟨S32000x512, .f32⟩
  | .hbm, ⟨42, _⟩ => ⟨S32000x512, .i1⟩
  | .hbm, ⟨43, _⟩ => ⟨S_, .f32⟩
  | .hbm, ⟨44, _⟩ => ⟨S_, .f32⟩
  | .hbm, ⟨45, _⟩ => ⟨S32000x512, .f32⟩
  | .hbm, ⟨46, _⟩ => ⟨S32000x512, .f32⟩
  | .hbm, ⟨47, _⟩ => ⟨S32000x512, .f32⟩
  | .hbm, ⟨48, _⟩ => ⟨S_, .f32⟩
  | .hbm, ⟨49, _⟩ => ⟨S32000x512, .f32⟩
  | .hbm, ⟨50, _⟩ => ⟨S32000x512, .f32⟩
  | .hbm, ⟨51, _⟩ => ⟨S32000x512, .f32⟩
  | .hbm, ⟨52, _⟩ => ⟨S32000x4096, .f32⟩
  | .hbm, ⟨53, _⟩ => ⟨S_, .i32⟩
  | .hbm, ⟨54, _⟩ => ⟨S4x2048, .i32⟩
  | .hbm, ⟨55, _⟩ => ⟨S4x2048, .i1⟩
  | .hbm, ⟨56, _⟩ => ⟨S_, .i32⟩
  | .hbm, ⟨57, _⟩ => ⟨S4x2048, .i32⟩
  | .hbm, ⟨58, _⟩ => ⟨S4x2048, .i32⟩
  | .hbm, ⟨59, _⟩ => ⟨S4x2048, .i32⟩
  | .hbm, ⟨60, _⟩ => ⟨S4x2048x1, .i32⟩
  | .hbm, ⟨61, _⟩ => ⟨S4x2048x4096, .f32⟩
  | .hbm, ⟨62, _⟩ => ⟨S_, .i32⟩
  | .hbm, ⟨63, _⟩ => ⟨S4x2048, .i32⟩
  | .hbm, ⟨64, _⟩ => ⟨S4x2048, .i1⟩
  | .hbm, ⟨65, _⟩ => ⟨S_, .i32⟩
  | .hbm, ⟨66, _⟩ => ⟨S4x2048, .i32⟩
  | .hbm, ⟨67, _⟩ => ⟨S4x2048, .i32⟩
  | .hbm, ⟨68, _⟩ => ⟨S4x2048, .i32⟩
  | .hbm, ⟨69, _⟩ => ⟨S4x2048x1, .i32⟩
  | .hbm, ⟨70, _⟩ => ⟨S4x2048x4096, .f32⟩
  | .hbm, ⟨71, _⟩ => ⟨S4x2048x4096, .f32⟩
  | _, _ => ⟨S32000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_cst_1 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v4 : Ref sig .tc := ⟨.hbm, 46, rfl⟩
abbrev main_call0_v5 : Ref sig .tc := ⟨.hbm, 47, rfl⟩
abbrev main_call0_cst_2 : Ref sig .tc := ⟨.hbm, 48, rfl⟩
abbrev main_call0_v6 : Ref sig .tc := ⟨.hbm, 49, rfl⟩
abbrev main_call0_v7 : Ref sig .tc := ⟨.hbm, 50, rfl⟩
abbrev main_v25 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]

class Facts₀ : Prop where
  reducesTo_S32000x512_S32000_d1 : S32000x512.ReducesTo [1] S32000
  h_S_ : 0 < S_.numel
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S32000x1_S32000x512_0_1 : S32000x1.BroadcastsInDim S32000x512 (![0, 1] : Fin 2 → Fin S32000x512.rank)
  bcast_S512_S1x512_1 : S512.BroadcastsInDim S1x512 (![1] : Fin 1 → Fin S1x512.rank)
  bcast_S1x512_S32000x512_0_1 : S1x512.BroadcastsInDim S32000x512 (![0, 1] : Fin 2 → Fin S32000x512.rank)
  bcast_S_S32000x512 : S_.BroadcastsInDim S32000x512 (![] : Fin 0 → Fin S32000x512.rank)
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  dot_S32000x768_S512x768_S32000x512_1_1_0_0_n_n_wf : DotDims.WF S32000x768 S512x768 S32000x512 [1] [1] [0] [0] [] []
  dot_S32000x512_S4096x512_S32000x4096_1_1_0_0_n_n_wf : DotDims.WF S32000x512 S4096x512 S32000x4096 [1] [1] [0] [0] [] []
  gather_S32000x4096_S4x2048x1_S4x2048x4096_2_0_n_n_0_2_14096_wf : GatherDims.WF S32000x4096 S4x2048x1 S4x2048x4096 [2] [0] [] [0] [] 2 ![1, 4096]

variable [Facts₀]

def dot_S32000x768_S512x768_S32000x512_1_1_0_0_n_n : DotDims S32000x768 S512x768 S32000x512 where
  lhsContracting := [1]
  rhsContracting := [1]
  lhsNonContracting := [0]
  rhsNonContracting := [0]
  lhsBatch := []
  rhsBatch := []
  wf := dot_S32000x768_S512x768_S32000x512_1_1_0_0_n_n_wf
def dot_S32000x512_S4096x512_S32000x4096_1_1_0_0_n_n : DotDims S32000x512 S4096x512 S32000x4096 where
  lhsContracting := [1]
  rhsContracting := [1]
  lhsNonContracting := [0]
  rhsNonContracting := [0]
  lhsBatch := []
  rhsBatch := []
  wf := dot_S32000x512_S4096x512_S32000x4096_1_1_0_0_n_n_wf
def gather_S32000x4096_S4x2048x1_S4x2048x4096_2_0_n_n_0_2_14096 : GatherDims S32000x4096 S4x2048x1 S4x2048x4096 where
  offsetDims := [2]
  collapsedSliceDims := [0]
  operandBatchingDims := []
  startIndicesBatchingDims := []
  startIndexMap := [0]
  indexVectorDim := 2
  sliceSizes := ![1, 4096]
  wf := gather_S32000x4096_S4x2048x1_S4x2048x4096_2_0_n_n_0_2_14096_wf

class Facts : Prop extends Facts₀ where

variable [Facts]
-- ==== Proof.Spec.lean ====
/-
  The mathematics both programs share, stated once and independently of either program.

  A token id is a 32-bit word `w`.  Both programs first WRAP a negative id by the table height, `w ↦ w + 32000` when
  `w < 0` (`wrapIdx`), and then read the table row the wrapped word names, read signed and clamped into
  `[0, 31999]` (`rowOf`).  On the ids that index the table in range, `-32000 ≤ w < 32000` (`InRange`), the wrapped
  word lies in `[0, 31999]`, so nothing is clamped.

  For one table row `x` (768 entries) the result row (4096 entries) is

      h j   = Σ_k x k · w1 j k                               (first projection, 512 entries)
      μ     = (Σ_j h j) / 512 ,   σ² = (Σ_j (h j − μ)²) / 512
      n j   = (h j − μ) · rsqrt (σ² + ε) · γ j + β j         (layer normalisation)
      a j   = n j  if 0 < n j ,  else  exp (n j) − 1          (ELU)
      out q = Σ_j a j · w2 q j + l q                         (second projection, plus the second table's row)

  on the extended reals, with 512 and ε the two float words the programs carry.  `elu` is reached from both
  spellings of the activation: the select between `y` and `exp y − 1`, and the select between `y` and
  `1 · (exp y' − 1)` where `y'` is `y` with its positive values replaced by `0` (on the branch that is taken,
  `y' = y`).
-/
import Idealize.ShloMosaic.PureOps.Ideal
import Idealize.ShloMosaic.PureOps.Ideal.Laws
import Idealize.ShloMosaic.Lib.ValueIdx
import Idealize.ShloMosaic.Lib.Affine

noncomputable section

namespace Cert.Mlp

open Idealize.ShloMosaic
open scoped BigOperators

/-! ## Token ids -/

/-- A negative id counts from the end of the table. -/
def wrapIdx (w : BitVec 32) : BitVec 32 :=
  Scalar.select (IntOp.cmpi .slt w 0#32) (IntOp.addi w 32000#32) w

/-- The ids that name a row of a table of 32000 rows, counting from either end. -/
def InRange (w : BitVec 32) : Prop := -32000 ≤ w.toInt ∧ w.toInt < 32000

/-- The row a gather reads for the id `w`: the wrapped word, read signed and clamped into the table. -/
def rowOf (w : BitVec 32) : Fin 32000 := ⟨min (wrapIdx w).toInt.toNat 31999, by omega⟩

theorem toInt_zero32 : (0#32 : BitVec 32).toInt = 0 := by decide
theorem toInt_32000 : (32000#32 : BitVec 32).toInt = 32000 := by decide
theorem toInt_31999 : (31999#32 : BitVec 32).toInt = 31999 := by decide
theorem toInt_neg32000 : (4294935296#32 : BitVec 32).toInt = -32000 := by decide

/-- An id in range wraps to a word in `[0, 31999]`. -/
theorem wrapIdx_toInt {w : BitVec 32} (h : InRange w) : 0 ≤ (wrapIdx w).toInt ∧ (wrapIdx w).toInt ≤ 31999 := by
  obtain ⟨h1, h2⟩ := h
  unfold wrapIdx
  by_cases hn : w.toInt < 0
  · have hc : IntOp.cmpi .slt w 0#32 = 1#1 := IntOp.cmpi_slt.2 (by rw [toInt_zero32]; exact hn)
    have e : (IntOp.addi w 32000#32).toInt = w.toInt + 32000 := by
      unfold IntOp.addi
      rw [BitVec.toInt_add, toInt_32000]
      rw [Int.bmod_def]
      omega
    rw [hc, ValueIdx.select_one, e]; omega
  · have hc : IntOp.cmpi .slt w 0#32 = 0#1 := ValueIdx.eq_zero_of_ne_one fun hh => hn (by
      have := IntOp.cmpi_slt.1 hh; rw [toInt_zero32] at this; exact this)
    rw [hc, ValueIdx.select_zero]; omega

/-- So the two range tests a filling gather makes on the wrapped word both succeed … -/
theorem wrapIdx_sge {w : BitVec 32} (h : InRange w) : IntOp.cmpi .sge (wrapIdx w) 0#32 = 1#1 :=
  IntOp.cmpi_sge.2 (by rw [toInt_zero32]; exact (wrapIdx_toInt h).1)

theorem wrapIdx_sle {w : BitVec 32} (h : InRange w) : IntOp.cmpi .sle (wrapIdx w) 31999#32 = 1#1 :=
  IntOp.cmpi_sle.2 (by rw [toInt_31999]; exact (wrapIdx_toInt h).2)

/-- … and the range is what the two comparisons of the stated domain say of the word. -/
theorem inRange_of_cmp {w : BitVec 32} (h1 : IntOp.cmpi .sge w 4294935296#32 = 1#1)
    (h2 : IntOp.cmpi .slt w 32000#32 = 1#1) : InRange w := by
  have a := IntOp.cmpi_sge.1 h1
  have b := IntOp.cmpi_slt.1 h2
  rw [toInt_neg32000] at a
  rw [toInt_32000] at b
  exact ⟨a, b⟩

/-! ## One row -/

/-- The divisor 512 and the variance offset, as the float words both programs carry. -/
def c512 : EReal := Ideal.ofBits .f32 0x44000000#32
def ceps : EReal := Ideal.ofBits .f32 0x3727C5AC#32

/-- The first projection of a row. -/
def hidden (x : Fin 768 → EReal) (w1 : Fin 512 → Fin 768 → EReal) (j : Fin 512) : EReal :=
  ∑ k : Fin 768, x k * w1 j k

def mean (h : Fin 512 → EReal) : EReal := Ideal.div (∑ j : Fin 512, h j) c512

def var (h : Fin 512 → EReal) : EReal := Ideal.div (∑ j : Fin 512, (h j - mean h) * (h j - mean h)) c512

/-- Layer normalisation of the 512 hidden values, with scale `γ` and shift `β`. -/
def normed (h γ β : Fin 512 → EReal) (j : Fin 512) : EReal :=
  (h j - mean h) * Ideal.rsqrt (var h + ceps) * γ j + β j

/-- ELU with unit slope. -/
def elu (y : EReal) : EReal := if 0 < y then y else Ideal.exp y - 1

/-- The result row: the second projection of the activated, normalised hidden values, plus the second table's row. -/
def outRow (x : Fin 768 → EReal) (w1 : Fin 512 → Fin 768 → EReal) (γ β : Fin 512 → EReal)
    (w2 : Fin 4096 → Fin 512 → EReal) (l : Fin 4096 → EReal) (q : Fin 4096) : EReal :=
  (∑ j : Fin 512, elu (normed (hidden x w1) γ β j) * w2 q j) + l q

/-! ## The two spellings of the activation -/

theorem ofBits_one_f32 : Ideal.ofBits .f32 0x3F800000#32 = 1 := by
  simp [Ideal.ofBits, Ideal.ieee]
  rw [← EReal.coe_mul]
  norm_num

/-- The select between `y` and `exp y − 1` on `y > 0`. -/
theorem elu_of_select (y : EReal) :
    Scalar.select (Ideal.cmp .ogt y (Ideal.ofBits .f32 0x00000000#32)) y (Ideal.exp y - Ideal.ofBits .f32 0x3F800000#32) = elu y := by
  rw [Ideal.ofBits_zero_f32, ofBits_one_f32]
  unfold Scalar.select Ideal.cmp elu
  by_cases h : (0 : EReal) < y
  · simp [h]
  · simp [h]

/-- The select between `y` and `1 · (exp y' − 1)`, `y'` being `y` with its positive values replaced by `0`. -/
theorem elu_of_select_guarded (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu y := by
  rw [Ideal.ofBits_zero_f32, ofBits_one_f32, one_mul]
  unfold Scalar.select Ideal.cmp elu
  by_cases h : (0 : EReal) < y
  · simp [h]
  · simp [h]

end Cert.Mlp

end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.KerPayload.lean ====
/-
  The kernel body's arithmetic at one entry.

  On a block of 256 gathered rows the body computes, for row `p` of the block and output column `q`,

      Σ_j elu (normed (hidden x_p) γ β j) · w2 (q, j)  +  l (p, q) ,

  `x_p` being row `p` of the first table's block and `l` the second table's block: the result row of the shared
  mathematics, taken at the block's row `p`.

  The body's value is cut into stages, each named here as the body spells it on the whole block: the first
  projection, a lane sum divided by 512 kept as a column (used twice: for the mean, and for the variance of the centred
  block), the centred block, the normalised block, the activation.  Each stage is then read at an entry `(p, j)` as
  the function of row `p` alone that the shared mathematics names (`hidden`, `mean`, `var`, `normed`, `elu`).

  What the reading needs of the layout operations: a vector viewed as a column, and a column spread along the lanes,
  read the entry of their row; a vector laid as one row and repeated on every row reads the entry of its lane; a lane
  sum is the sum over the lane coordinate; each product into the zero block is the sum over its one contracted
  coordinate, the second coordinate of both operands.  A change of float format is the identity on extended reals, and
  a cast to the same shape is the identity.
-/
import proofs.«423969_j36627481100850_1_alg».proof.Proof.Gen.KernelIdeal.Skeleton
import proofs.«423969_j36627481100850_1_alg».proof.Proof.Spec
import proofs.«423969_j36627481100850_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.PayValue
open Idealize.ShloMosaic Idealize.ShloMosaic.ValueIdx Cert.KernelIdeal Cert.KernelIdeal.Gen
open scoped BigOperators

/-! ## Layout operations of the row chain, read at coordinates -/

section Layout
variable {α : Type}

/-- A vector of 256 entries viewed as a `256 × 1` column reads, at `(p, u)`, its entry `p`. -/
theorem column_at (v : S256.Idx → α) (p : Fin 256) (u : Fin 1) :
    shapeCast S256x1 v shapeCasts_S256_S256x1 (ix2 p u) = v (ix1 p) :=
  shapeCast_apply v shapeCasts_S256_S256x1 _ _ (by
    have hu : u.val = 0 := by omega
    rw [Shape.rowMajor_val_two, Shape.rowMajor_val_one]
    show p.val = p.val * 1 + u.val
    rw [hu, Nat.mul_one, Nat.add_zero])

/-- A `256 × 1` column spread along 512 lanes reads, at `(p, j)`, the column's entry `p`. -/
theorem spread_at (c : S256x1.Idx → α) (p : Fin 256) (j : Fin 512) :
    broadcastTo S256x512 c broadcasts_S256x1_S256x512 (ix2 p j) = c (ix2 p (0 : Fin 1)) := by
  refine broadcastTo_apply c broadcasts_S256x1_S256x512 (ix2 p j) (ix2 p (0 : Fin 1)) fun ax => ?_
  match ax with
  | ⟨0, _⟩ => rfl
  | ⟨1, _⟩ => rfl

/-- A vector of 512 entries laid as one row and repeated on 256 rows reads, at `(p, j)`, its entry `j`. -/
theorem repeat_at (v : S512.Idx → α) (p : Fin 256) (j : Fin 512) :
    broadcastTo S256x512 (shapeCast S1x512 v shapeCasts_S512_S1x512) broadcasts_S1x512_S256x512 (ix2 p j) = v (ix1 j) :=
  (broadcastTo_1b_ab_apply _ broadcasts_S1x512_S256x512 p j).trans
    (shapeCast_a_1a_apply v shapeCasts_S512_S1x512 (0 : Fin 1) j)

end Layout

/-! ## The lane sum -/

/-- The sum along the 512 lanes of a `256 × 512` block, read at row `p`. -/
theorem lanesum_at (v : FVec Ideal S256x512 .f32) (p : Fin 256) :
    multiReduction (F := Ideal) .add [1] S256 v 0x00000000#32 reduces_S256x512_S256 (.inl rfl) rfl (ix1 p)
      = ∑ j : Fin 512, v (ix2 p j) :=
  (Ideal.multiReduction_add_single v 0x00000000#32 reduces_S256x512_S256 (.inl rfl) rfl (ix1 p)).trans
    (Finset.sum_congr rfl fun j _ => congrArg v (funext fun a => Fin.ext (by
      match a with
      | ⟨0, _⟩ => rfl
      | ⟨1, _⟩ => rfl)))

/-! ## The two products: which operand entries meet at a result entry -/

theorem proj1_lhs_0 (j : S256x512.Idx) (q : dot_S256x768_S512x768_S256x512_1_1_0_0_n_n.contr.Idx) :
    (dot_S256x768_S512x768_S256x512_1_1_0_0_n_n.lhsIdx j q 0).val = (j 0).val := rfl
theorem proj1_lhs_1 (j : S256x512.Idx) (q : dot_S256x768_S512x768_S256x512_1_1_0_0_n_n.contr.Idx) :
    (dot_S256x768_S512x768_S256x512_1_1_0_0_n_n.lhsIdx j q 1).val = (q ⟨0, by decide⟩).val :=
  DotDims.lhsIdx_val_of_single _ rfl j q
theorem proj1_rhs_0 (j : S256x512.Idx) (q : dot_S256x768_S512x768_S256x512_1_1_0_0_n_n.contr.Idx) :
    (dot_S256x768_S512x768_S256x512_1_1_0_0_n_n.rhsIdx j q 0).val = (j 1).val := rfl
theorem proj1_rhs_1 (j : S256x512.Idx) (q : dot_S256x768_S512x768_S256x512_1_1_0_0_n_n.contr.Idx) :
    (dot_S256x768_S512x768_S256x512_1_1_0_0_n_n.rhsIdx j q 1).val = (q ⟨0, by decide⟩).val :=
  DotDims.rhsIdx_val_of_single _ rfl j q

theorem proj2_lhs_0 (j : S256x4096.Idx) (q : dot_S256x512_S4096x512_S256x4096_1_1_0_0_n_n.contr.Idx) :
    (dot_S256x512_S4096x512_S256x4096_1_1_0_0_n_n.lhsIdx j q 0).val = (j 0).val := rfl
theorem proj2_lhs_1 (j : S256x4096.Idx) (q : dot_S256x512_S4096x512_S256x4096_1_1_0_0_n_n.contr.Idx) :
    (dot_S256x512_S4096x512_S256x4096_1_1_0_0_n_n.lhsIdx j q 1).val = (q ⟨0, by decide⟩).val :=
  DotDims.lhsIdx_val_of_single _ rfl j q
theorem proj2_rhs_0 (j : S256x4096.Idx) (q : dot_S256x512_S4096x512_S256x4096_1_1_0_0_n_n.contr.Idx) :
    (dot_S256x512_S4096x512_S256x4096_1_1_0_0_n_n.rhsIdx j q 0).val = (j 1).val := rfl
theorem proj2_rhs_1 (j : S256x4096.Idx) (q : dot_S256x512_S4096x512_S256x4096_1_1_0_0_n_n.contr.Idx) :
    (dot_S256x512_S4096x512_S256x4096_1_1_0_0_n_n.rhsIdx j q 1).val = (q ⟨0, by decide⟩).val :=
  DotDims.rhsIdx_val_of_single _ rfl j q

/-- The first product into the zero block: entry `(p, j)` is `Σ_k a (p, k) · w (j, k)`. -/
theorem proj1_at (a : FVec Ideal S256x768 .bf16) (w : FVec Ideal S512x768 .bf16) (p : Fin 256) (j : Fin 512) :
    matmul dot_S256x768_S512x768_S256x512_1_1_0_0_n_n none a w (constant (F := Ideal) S256x512 .f32 0x00000000#32) (ix2 p j)
      = ∑ k : Fin 768, a (ix2 p k) * w (ix2 j k) :=
  (Ideal.matmul_constant_zero_apply dot_S256x768_S512x768_S256x512_1_1_0_0_n_n none a w (ix2 p j)).trans
    (Cert.Lib.contraction_sum dot_S256x768_S512x768_S256x512_1_1_0_0_n_n 768 rfl rfl a w (ix2 p j)
      (fun k => a (ix2 p k)) (fun k => w (ix2 j k))
      (fun q => congrArg a (Shape.idx_ext₂ (proj1_lhs_0 (ix2 p j) q) (proj1_lhs_1 (ix2 p j) q)))
      (fun q => congrArg w (Shape.idx_ext₂ (proj1_rhs_0 (ix2 p j) q) (proj1_rhs_1 (ix2 p j) q))))

/-- The second product into the zero block: entry `(p, q)` is `Σ_j a (p, j) · w (q, j)`. -/
theorem proj2_at (a : FVec Ideal S256x512 .bf16) (w : FVec Ideal S4096x512 .bf16) (p : Fin 256) (q : Fin 4096) :
    matmul dot_S256x512_S4096x512_S256x4096_1_1_0_0_n_n none a w (constant (F := Ideal) S256x4096 .f32 0x00000000#32) (ix2 p q)
      = ∑ j : Fin 512, a (ix2 p j) * w (ix2 q j) :=
  (Ideal.matmul_constant_zero_apply dot_S256x512_S4096x512_S256x4096_1_1_0_0_n_n none a w (ix2 p q)).trans
    (Cert.Lib.contraction_sum dot_S256x512_S4096x512_S256x4096_1_1_0_0_n_n 512 rfl rfl a w (ix2 p q)
      (fun j => a (ix2 p j)) (fun j => w (ix2 q j))
      (fun c => congrArg a (Shape.idx_ext₂ (proj2_lhs_0 (ix2 p q) c) (proj2_lhs_1 (ix2 p q) c)))
      (fun c => congrArg w (Shape.idx_ext₂ (proj2_rhs_0 (ix2 p q) c) (proj2_rhs_1 (ix2 p q) c))))

/-! ## The kernel's spelling of each stage of the row chain, on a block of 256 rows -/

/-- The first projection of the block of rows. -/
def hiddenBlk (x : Vec Ideal S256x768 .f32) (w1 : Vec Ideal S512x768 .bf16) : FVec Ideal S256x512 .f32 :=
  matmul dot_S256x768_S512x768_S256x512_1_1_0_0_n_n none
    (truncf .bf16 (shapeCast S256x768 x shapeCasts_S256x768_S256x768) bitsLt_bf16_f32)
    (shapeCast S512x768 w1 shapeCasts_S512x768_S512x768 : FVec Ideal S512x768 .bf16) (constant S256x512 .f32 0x00000000#32)

/-- A lane sum divided by 512, kept as a `256 × 1` column. -/
def avgCol (v : FVec Ideal S256x512 .f32) : FVec Ideal S256x1 .f32 :=
  divf (shapeCast S256x1 (multiReduction .add [1] S256 v 0x00000000#32 reduces_S256x512_S256 (.inl rfl) rfl) shapeCasts_S256_S256x1)
    (broadcast S256x1 (Scalar.ofBits .f32 0x44000000#32))

/-- The block with each row's mean taken off. -/
def centredBlk (h : FVec Ideal S256x512 .f32) : FVec Ideal S256x512 .f32 :=
  subf h (broadcastTo S256x512 (avgCol h) broadcasts_S256x1_S256x512)

/-- Layer normalisation of each row of the block, with scale `g` and shift `b`. -/
def normedBlk (h : FVec Ideal S256x512 .f32) (g b : Vec Ideal S512 .f32) : FVec Ideal S256x512 .f32 :=
  addf
    (mulf
      (mulf (centredBlk h)
        (broadcastTo S256x512
          (rsqrt (addf (avgCol (mulf (centredBlk h) (centredBlk h))) (broadcast S256x1 (Scalar.ofBits .f32 0x3727C5AC#32))))
          broadcasts_S256x1_S256x512))
      (broadcastTo S256x512 (shapeCast S1x512 g shapeCasts_S512_S1x512) broadcasts_S1x512_S256x512))
    (broadcastTo S256x512 (shapeCast S1x512 b shapeCasts_S512_S1x512) broadcasts_S1x512_S256x512)

/-- The activation, entry by entry: `y` where `y > 0`, else `exp y − 1`. -/
def eluBlk (n : FVec Ideal S256x512 .f32) : FVec Ideal S256x512 .f32 :=
  select (cmpf .ogt n (broadcast S256x512 (Scalar.ofBits .f32 0x00000000#32))) n
    (subf (exp n) (broadcast S256x512 (Scalar.ofBits .f32 0x3F800000#32)))

/-- The body's value before the second table's block is added: the second projection of the activated, normalised
    first projection. -/
theorem pay2_eq (x0 : Vec Ideal S256x768 .f32) (x2 : Vec Ideal S512x768 .bf16) (x4 x5 : Vec Ideal S512 .f32)
    (x3 : Vec Ideal S4096x512 .bf16) :
    k0_pay2 (F := Ideal) x0 x2 x4 x5 x3
      = matmul dot_S256x512_S4096x512_S256x4096_1_1_0_0_n_n none
          (truncf .bf16 (eluBlk (normedBlk (hiddenBlk x0 x2) x4 x5)) bitsLt_bf16_f32)
          (shapeCast S4096x512 x3 shapeCasts_S4096x512_S4096x512 : FVec Ideal S4096x512 .bf16) (constant S256x4096 .f32 0x00000000#32) := rfl

/-! ## Each stage at an entry of row `p` is the shared mathematics of that row -/

theorem hidden_at (x : Vec Ideal S256x768 .f32) (w1 : Vec Ideal S512x768 .bf16) (p : Fin 256) (j : Fin 512) :
    hiddenBlk x w1 (ix2 p j) = Cert.Mlp.hidden (fun k => x (ix2 p k)) (fun j k => w1 (ix2 j k)) j := by
  unfold hiddenBlk
  rw [shapeCast_self x, shapeCast_self w1]
  exact proj1_at _ _ p j

theorem avg_at (v : FVec Ideal S256x512 .f32) (p : Fin 256) (u : Fin 1) :
    avgCol v (ix2 p u) = Ideal.div (∑ j : Fin 512, v (ix2 p j)) Cert.Mlp.c512 :=
  congrArg (fun t => Ideal.div t Cert.Mlp.c512) ((column_at _ p u).trans (lanesum_at v p))

theorem mean_at (h : FVec Ideal S256x512 .f32) (p : Fin 256) (u : Fin 1) :
    avgCol h (ix2 p u) = Cert.Mlp.mean (fun j => h (ix2 p j)) := avg_at h p u

theorem centred_at (h : FVec Ideal S256x512 .f32) (p : Fin 256) (j : Fin 512) :
    centredBlk h (ix2 p j) = h (ix2 p j) - Cert.Mlp.mean (fun j => h (ix2 p j)) :=
  congrArg (fun t => h (ix2 p j) - t) ((spread_at (avgCol h) p j).trans (mean_at h p 0))

theorem var_at (h : FVec Ideal S256x512 .f32) (p : Fin 256) (u : Fin 1) :
    avgCol (mulf (centredBlk h) (centredBlk h)) (ix2 p u) = Cert.Mlp.var (fun j => h (ix2 p j)) :=
  (avg_at _ p u).trans (congrArg (fun t => Ideal.div t Cert.Mlp.c512)
    (Finset.sum_congr rfl fun j _ => by
      show centredBlk h (ix2 p j) * centredBlk h (ix2 p j) = _
      rw [centred_at]))

theorem normed_at (h : FVec Ideal S256x512 .f32) (g b : Vec Ideal S512 .f32) (p : Fin 256) (j : Fin 512) :
    normedBlk h g b (ix2 p j)
      = Cert.Mlp.normed (fun j => h (ix2 p j)) (fun j => g (ix1 j)) (fun j => b (ix1 j)) j := by
  show centredBlk h (ix2 p j)
        * broadcastTo S256x512
            (rsqrt (addf (avgCol (mulf (centredBlk h) (centredBlk h))) (broadcast S256x1 (Scalar.ofBits .f32 0x3727C5AC#32))))
            broadcasts_S256x1_S256x512 (ix2 p j)
        * broadcastTo S256x512 (shapeCast S1x512 g shapeCasts_S512_S1x512) broadcasts_S1x512_S256x512 (ix2 p j)
      + broadcastTo S256x512 (shapeCast S1x512 b shapeCasts_S512_S1x512) broadcasts_S1x512_S256x512 (ix2 p j) = _
  rw [centred_at, spread_at, repeat_at, repeat_at]
  show _ * Ideal.rsqrt (avgCol (mulf (centredBlk h) (centredBlk h)) (ix2 p (0 : Fin 1)) + Cert.Mlp.ceps) * _ + _ = _
  rw [var_at]
  rfl

theorem act_at (n : FVec Ideal S256x512 .f32) (p : Fin 256) (j : Fin 512) :
    eluBlk n (ix2 p j) = Cert.Mlp.elu (n (ix2 p j)) :=
  Cert.Mlp.elu_of_select (n (ix2 p j))

/-! ## The body's arithmetic at one entry -/

theorem pay_apply (x0 : Vec Ideal S256x768 .f32) (x1 : Vec Ideal S256x4096 .f32) (x2 : Vec Ideal S512x768 .bf16)
    (x3 : Vec Ideal S4096x512 .bf16) (x4 x5 : Vec Ideal S512 .f32) (p : Fin 256) (q : Fin 4096) :
    k0_pay1 (F := Ideal) (k0_pay2 x0 x2 x4 x5 x3) x1 (ix2 p q)
      = Cert.Mlp.outRow (fun k => x0 (ix2 p k)) (fun j k => x2 (ix2 j k)) (fun j => x4 (ix1 j)) (fun j => x5 (ix1 j))
          (fun q' j => x3 (ix2 q' j)) (fun q' => x1 (ix2 p q')) q := by
  show k0_pay2 (F := Ideal) x0 x2 x4 x5 x3 (ix2 p q) + shapeCast S256x4096 x1 shapeCasts_S256x4096_S256x4096 (ix2 p q) = _
  rw [pay2_eq, shapeCast_self x1, shapeCast_self x3]
  have hrow : (fun j => hiddenBlk x0 x2 (ix2 p j))
      = Cert.Mlp.hidden (fun k => x0 (ix2 p k)) (fun j k => x2 (ix2 j k)) := funext fun j => hidden_at x0 x2 p j
  refine congrArg (fun t => t + x1 (ix2 p q)) ((proj2_at _ _ p q).trans (Finset.sum_congr rfl fun j _ => ?_))
  show eluBlk (normedBlk (hiddenBlk x0 x2) x4 x5) (ix2 p j) * x3 (ix2 q j) = _
  rw [act_at, normed_at, hrow]

end Cert.KernelIdeal.PayValue
end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.KerHost.lean ====
/-
  What the four arrays the kernel stages hold when its region is entered.

  Before the region the host operations flatten the `4 × 2048` ids to `8192` positions, and then twice — once per
  table — gather table rows by them, in the filling form: a negative id `w` is first wrapped to `w + 32000`; the
  wrapped word, as a one-entry start index, is tested against `0 ≤ · ≤ 31999`; the row it names (read signed and
  clamped into the table) is gathered; and a position whose test fails is overwritten by a fill value. On a position
  whose id lies in `[-32000, 32000)` the wrapped word passes the test, so nothing is filled and nothing is clamped
  away: position `n` of the gathered array is row `rowOf id` of the table. The two weight matrices are only changed in
  float format, which at the extended reals changes nothing.
-/
import proofs.«423969_j36627481100850_1_alg».proof.Proof.Gen.KernelIdeal.Frame
import proofs.«423969_j36627481100850_1_alg».proof.Proof.Spec
import proofs.«423969_j36627481100850_1_alg».proof.Proof.LibReduceAndAll
import proofs.«423969_j36627481100850_1_alg».proof.Proof.LibRowGatherScatter
import Idealize.ShloMosaic.Lib.ValueIdx
import Idealize.ShloMosaic.Lib.Pipeline.Value
import Idealize.ShloMosaic.Lib.StableHlo.Run
noncomputable section
namespace Cert.KernelIdeal.HostValue
open Idealize.ShloMosaic Idealize.ShloMosaic.TcCoe Idealize.ShloMosaic.ValueIdx Idealize.SL.Sem Cert.KernelIdeal Cert.KernelIdeal.Gen

/-! ## A vector broadcast along the rows of a rectangle -/

/-- A vector of `n` entries laid down the rows of an `n × k` rectangle (each row constant) reads, at `(p, q)`, its
    entry `p`. With `k = 1` this is the vector written as a column. -/
theorem bcast_down_rows {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  unfold broadcastInDim
  refine congrArg v (funext fun a => Fin.ext ?_)
  match a with
  | ⟨0, _⟩ =>
    split
    · next h1 =>
      have hn : n = 1 := h1
      have hp := p.isLt
      show 0 = p.val
      omega
    · rfl

variable (m : (ℓ : Loc nD τ sig) → Buf (Elt Ideal) ℓ)

/-! ## The ids, as the host operations prepare them -/

/-- The id of flat position `n` of the ids: row-major, `n = 2048·b + s`. -/
def idAt (c : Dev nD) (n : Fin 8192) : BitVec 32 :=
  (m ((c : Thread nD τ).loc main_arg6) : S4x2048.Idx → BitVec 32) (ix2 (⟨n.val / 2048, by omega⟩ : Fin 4) (⟨n.val % 2048, by omega⟩ : Fin 2048))

/-- The `4 × 2048` ids laid out flat. -/
def flatIds (c : Dev nD) : S8192.Idx → BitVec 32 :=
  shapeCast S8192 (m ((c : Thread nD τ).loc main_arg6) : S4x2048.Idx → BitVec 32) shapeCasts_S4x2048_S8192

/-- The flat ids with the negative ones wrapped by the table height. -/
def wrapped (c : Dev nD) : S8192.Idx → BitVec 32 :=
  select (cmpi .slt (flatIds m c) (broadcastInDim S8192 ![] bcast_S_S8192 (constantI S_ 32 0#32)))
    (addi (flatIds m c) (broadcastInDim S8192 ![] bcast_S_S8192 (constantI S_ 32 32000#32))) (flatIds m c)

/-- The wrapped ids as a column: the start indices of the two gathers. -/
def idxCol (c : Dev nD) : S8192x1.Idx → BitVec 32 :=
  broadcastInDim S8192x1 ![0] bcast_S8192_S8192x1_0 (wrapped m c)

/-- Per start index, whether it names a row of the table: `0 ≤ · ≤ 31999`. -/
def inTable (c : Dev nD) : S8192x1.Idx → BitVec 1 :=
  andi (cmpi .sge (idxCol m c) (broadcastInDim S8192x1 ![] bcast_S_S8192x1 (constantI S_ 32 0#32)))
    (cmpi .sle (idxCol m c) (broadcastInDim S8192x1 ![0, 1] bcast_S1x1_S8192x1_0_1
      (broadcastInDim S1x1 ![1] bcast_S1_S1x1_1 (constantI S1 32 31999#32))))

/-- Per position, whether every component of its start index is in the table (there is one component). -/
def rowMask (c : Dev nD) : S8192.Idx → BitVec 1 :=
  Host.reduce IntOp.andi (inTable m c) (constantI S_ 1 1#1) reducesTo_S8192x1_S8192_d1 h_S_

/-- Flat position `n = 2048·b + s` holds the id at `(b, s)`: the two have the same row-major position. -/
theorem flatIds_apply (c : Dev nD) (n : Fin 8192) : flatIds m c (ix1 n) = idAt m c n := by
  unfold flatIds idAt
  refine shapeCast_apply (s := S4x2048) (t := S8192) _ _ (ix1 n)
    (ix2 (⟨n.val / 2048, by omega⟩ : Fin 4) (⟨n.val % 2048, by omega⟩ : Fin 2048)) ?_
  rw [Shape.rowMajor_val_two, Shape.rowMajor_val_one]
  show n.val / 2048 * 2048 + n.val % 2048 = n.val
  omega

/-- Position `n` of the wrapped ids is the wrapped id of position `n`: the comparison, the sum and the choice are entrywise,
    and a broadcast constant reads the constant. -/
theorem wrapped_apply (c : Dev nD) (n : Fin 8192) : wrapped m c (ix1 n) = Cert.Mlp.wrapIdx (idAt m c n) := by
  rw [← flatIds_apply]
  rfl

/-- Start index `n` has the one component `wrapIdx id`. -/
theorem idxCol_apply (c : Dev nD) (n : Fin 8192) :
    idxCol m c (ix2 n (0 : Fin 1)) = Cert.Mlp.wrapIdx (idAt m c n) := by
  unfold idxCol
  exact (bcast_down_rows _ _ n 0).trans (wrapped_apply m c n)

/-- An id in range passes both tests. -/
theorem inTable_apply (c : Dev nD) (n : Fin 8192) (h : Cert.Mlp.InRange (idAt m c n)) :
    inTable m c (ix2 n (0 : Fin 1)) = 1#1 := by
  have e : inTable m c (ix2 n (0 : Fin 1))
      = IntOp.andi (IntOp.cmpi .sge (idxCol m c (ix2 n (0 : Fin 1))) 0#32)
          (IntOp.cmpi .sle (idxCol m c (ix2 n (0 : Fin 1))) 31999#32) := rfl
  rw [e, idxCol_apply, Cert.Mlp.wrapIdx_sge h, Cert.Mlp.wrapIdx_sle h]
  decide

/-- So the mask bit of a position whose id is in range is set: the only start index that reduces into position `n`
    is `(n, 0)`. -/
theorem rowMask_apply (c : Dev nD) (n : Fin 8192) (h : Cert.Mlp.InRange (idAt m c n)) :
    rowMask m c (ix1 n) = 1#1 := by
  unfold rowMask
  refine Cert.Gcn.reduce_andi_of_all _ _ _ _ _ rfl fun i hi => ?_
  have h0 : ((reducesTo_S8192x1_S8192_d1.drop i (0 : Fin 1) : Fin 8192) : Nat) = (i (0 : Fin 2)).val :=
    Shape.ReducesTo.drop_apply_val_of_eq reducesTo_S8192x1_S8192_d1 i (0 : Fin 1) (0 : Fin 2)
  have hi0 : i = ix2 n (0 : Fin 1) := by
    funext a
    refine Fin.ext ?_
    match a with
    | ⟨0, _⟩ =>
      show (i (0 : Fin 2)).val = n.val
      rw [← h0, hi]
    | ⟨1, _⟩ =>
      have h1 : (i (1 : Fin 2)).val < 1 := (i (1 : Fin 2)).isLt
      show (i (1 : Fin 2)).val = 0
      omega
  rw [hi0]
  exact inTable_apply m c n h

/-! ## The four staged arrays as terms of the host operations -/

/-- The first gathered array as the composite of its operations: computed from the operation list, then recognised as the
    choice, by the row mask, between the gather of the first table and the fill value. -/
theorem real_term (c : Dev nD) :
    (V m c main_v1 : S8192x768.Idx → EReal)
      = select (broadcastInDim S8192x768 ![0] bcast_S8192_S8192x768_0 (rowMask m c))
          (Host.gather gather_S32000x768_S8192x1_S8192x768_1_0_n_n_0_1_1768
            (m ((c : Thread nD τ).loc main_arg0) : S32000x768.Idx → EReal) (idxCol m c))
          (broadcastInDim S8192x768 ![] bcast_S_S8192x768 (constant (F := Ideal) S_ .f32 0x7FC00000#32)) := by
  obtain ⟨t, h1, h2⟩ : ∃ t : S8192x768.Idx → EReal, (V m c main_v1 : S8192x768.Idx → EReal) = t ∧ t
      = select (broadcastInDim S8192x768 ![0] bcast_S8192_S8192x768_0 (rowMask m c))
          (Host.gather gather_S32000x768_S8192x1_S8192x768_1_0_n_n_0_1_1768
            (m ((c : Thread nD τ).loc main_arg0) : S32000x768.Idx → EReal) (idxCol m c))
          (broadcastInDim S8192x768 ![] bcast_S_S8192x768 (constant (F := Ideal) S_ .f32 0x7FC00000#32)) := by
    refine ⟨?w, ?h1, ?h2⟩
    case h1 =>
      dsimp only [Gen.V, Gen.V0]
      simp only [Gen.hostOps0, Gen.hostOps0_1, Gen.hostOps0_2, Gen.hostOps0_3, List.flatten_cons, List.flatten_nil, List.append_nil, List.cons_append, List.nil_append]
      after_results
    case h2 => rfl
  exact h1.trans h2

/-- At a position whose id is in range the first gathered array holds the first table's row `rowOf id`: the mask bit is
    set, and the gather reads the row its start index names, clamped — which is `rowOf` of the id by definition. -/
theorem V_real (c : Dev nD) (n : Fin 8192) (k : Fin 768) (h : Cert.Mlp.InRange (idAt m c n)) :
    (V m c main_v1 : S8192x768.Idx → EReal) (ix2 n k)
      = (m ((c : Thread nD τ).loc main_arg0) : S32000x768.Idx → EReal) (ix2 (Cert.Mlp.rowOf (idAt m c n)) k) := by
  refine (congrFun (real_term m c) (ix2 n k)).trans ?_
  rw [select_apply, bcast_down_rows, rowMask_apply m c n h, select_one]
  have hg : gather_S32000x768_S8192x1_S8192x768_1_0_n_n_0_1_1768
      = Cert.Gcn.rowGatherDims 32000 8192 768 gather_S32000x768_S8192x1_S8192x768_1_0_n_n_0_1_1768_wf := rfl
  rw [hg, Cert.Gcn.gather_rows_apply (by decide)]
  refine congrArg (fun r : Fin 32000 => (m ((c : Thread nD τ).loc main_arg0) : S32000x768.Idx → EReal) (ix2 r k)) (Fin.ext ?_)
  show min (idxCol m c (ix2 n (0 : Fin 1))).toInt.toNat (32000 - 1) = min (Cert.Mlp.wrapIdx (idAt m c n)).toInt.toNat 31999
  rw [idxCol_apply]

/-- The second gathered array likewise, over the second table: its operations prepare the same start indices and the same
    mask from the same flat ids. -/
theorem llama_term (c : Dev nD) :
    (V m c main_v2 : S8192x4096.Idx → EReal)
      = select (broadcastInDim S8192x4096 ![0] bcast_S8192_S8192x4096_0 (rowMask m c))
          (Host.gather gather_S32000x4096_S8192x1_S8192x4096_1_0_n_n_0_1_14096
            (m ((c : Thread nD τ).loc main_arg1) : S32000x4096.Idx → EReal) (idxCol m c))
          (broadcastInDim S8192x4096 ![] bcast_S_S8192x4096 (constant (F := Ideal) S_ .f32 0x7FC00000#32)) := by
  obtain ⟨t, h1, h2⟩ : ∃ t : S8192x4096.Idx → EReal, (V m c main_v2 : S8192x4096.Idx → EReal) = t ∧ t
      = select (broadcastInDim S8192x4096 ![0] bcast_S8192_S8192x4096_0 (rowMask m c))
          (Host.gather gather_S32000x4096_S8192x1_S8192x4096_1_0_n_n_0_1_14096
            (m ((c : Thread nD τ).loc main_arg1) : S32000x4096.Idx → EReal) (idxCol m c))
          (broadcastInDim S8192x4096 ![] bcast_S_S8192x4096 (constant (F := Ideal) S_ .f32 0x7FC00000#32)) := by
    refine ⟨?w, ?h1, ?h2⟩
    case h1 =>
      dsimp only [Gen.V, Gen.V0]
      simp only [Gen.hostOps0, Gen.hostOps0_1, Gen.hostOps0_2, Gen.hostOps0_3, List.flatten_cons, List.flatten_nil, List.append_nil, List.cons_append, List.nil_append]
      after_results
    case h2 => rfl
  exact h1.trans h2

/-- The same for the second gathered array and the second table. -/
theorem V_llama (c : Dev nD) (n : Fin 8192) (k : Fin 4096) (h : Cert.Mlp.InRange (idAt m c n)) :
    (V m c main_v2 : S8192x4096.Idx → EReal) (ix2 n k)
      = (m ((c : Thread nD τ).loc main_arg1) : S32000x4096.Idx → EReal) (ix2 (Cert.Mlp.rowOf (idAt m c n)) k) := by
  refine (congrFun (llama_term m c) (ix2 n k)).trans ?_
  rw [select_apply, bcast_down_rows, rowMask_apply m c n h, select_one]
  have hg : gather_S32000x4096_S8192x1_S8192x4096_1_0_n_n_0_1_14096
      = Cert.Gcn.rowGatherDims 32000 8192 4096 gather_S32000x4096_S8192x1_S8192x4096_1_0_n_n_0_1_14096_wf := rfl
  rw [hg, Cert.Gcn.gather_rows_apply (by decide)]
  refine congrArg (fun r : Fin 32000 => (m ((c : Thread nD τ).loc main_arg1) : S32000x4096.Idx → EReal) (ix2 r k)) (Fin.ext ?_)
  show min (idxCol m c (ix2 n (0 : Fin 1))).toInt.toNat (32000 - 1) = min (Cert.Mlp.wrapIdx (idAt m c n)).toInt.toNat 31999
  rw [idxCol_apply]

/-! ## The two weight matrices -/

/-- The first weight matrix is staged entry by entry: narrowing the float format is the identity on extended reals. -/
theorem V_w1 (c : Dev nD) (i : S512x768.Idx) :
    (V m c main_v3 : S512x768.Idx → EReal) i = (m ((c : Thread nD τ).loc main_arg2) : S512x768.Idx → EReal) i := by
  have e : (V m c main_v3 : S512x768.Idx → EReal)
      = (truncf .bf16 (m ((c : Thread nD τ).loc main_arg2) : FVec Ideal S512x768 .f32) bitsLt_bf16_f32 : FVec Ideal S512x768 .bf16) := by
    dsimp only [Gen.V, Gen.V0]
    simp only [Gen.hostOps0, Gen.hostOps0_1, Gen.hostOps0_2, Gen.hostOps0_3, List.flatten_cons, List.flatten_nil, List.append_nil, List.cons_append, List.nil_append]
    after_results
    all_goals rfl
  exact (congrFun e i).trans (truncf_apply _ _ i)

/-- And so is the second. -/
theorem V_w2 (c : Dev nD) (i : S4096x512.Idx) :
    (V m c main_v4 : S4096x512.Idx → EReal) i = (m ((c : Thread nD τ).loc main_arg3) : S4096x512.Idx → EReal) i := by
  have e : (V m c main_v4 : S4096x512.Idx → EReal)
      = (truncf .bf16 (m ((c : Thread nD τ).loc main_arg3) : FVec Ideal S4096x512 .f32) bitsLt_bf16_f32 : FVec Ideal S4096x512 .bf16) := by
    dsimp only [Gen.V, Gen.V0]
    simp only [Gen.hostOps0, Gen.hostOps0_1, Gen.hostOps0_2, Gen.hostOps0_3, List.flatten_cons, List.flatten_nil, List.append_nil, List.cons_append, List.nil_append]
    after_results
    all_goals rfl
  exact (congrFun e i).trans (truncf_apply _ _ i)

end Cert.KernelIdeal.HostValue
end
-- ==== Proof.KerValue.lean ====
/-
  The kernel program's result as one function of its seven argument arrays.

  The region runs at 32 grid points; point `t` stages rows `256 t … 256 t + 255` of the two gathered arrays (768 and 4096
  columns), the two weight matrices and the two normalisation vectors whole, and writes back rows
  `256 t … 256 t + 255` of the 8192 × 4096 result. Entry `(p, q)` of the block the body leaves is the row function of
  Spec.lean at row `256 t + p` of the gathered arrays; on ids in range row `n` of the gathered arrays is row
  `rowOf (id n)` of the tables. The 32 blocks tile the result, so the result array ends holding `rowFlat` at every
  entry, and the reshape after the region lays the 8192 rows out as 4 × 2048, row `2048 b + s` at `(b, s)`.
-/
import proofs.«423969_j36627481100850_1_alg».proof.Proof.Gen.KernelIdeal.Frame
import proofs.«423969_j36627481100850_1_alg».proof.Proof.Spec
import proofs.«423969_j36627481100850_1_alg».proof.Proof.KerPayload
import proofs.«423969_j36627481100850_1_alg».proof.Proof.KerHost
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KerValue

open Cert.KernelIdeal Cert.KernelIdeal.Gen Cert.KernelIdeal.HostValue Cert.KernelIdeal.PayValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The result, row by row -/

/-- Entry `q` of the result row for flat token position `n`: the row function at the table rows the id names. -/
def rowFlat (c : Dev nD) (n : Fin 8192) (q : Fin 4096) : EReal :=
  Cert.Mlp.outRow
    (fun k => (m ((c : Thread nD τ).loc main_arg0) : S32000x768.Idx → EReal) (ix2 (Cert.Mlp.rowOf (idAt m c n)) k))
    (fun j k => (m ((c : Thread nD τ).loc main_arg2) : S512x768.Idx → EReal) (ix2 j k))
    (fun j => (m ((c : Thread nD τ).loc main_arg4) : S512.Idx → EReal) (ix1 j))
    (fun j => (m ((c : Thread nD τ).loc main_arg5) : S512.Idx → EReal) (ix1 j))
    (fun q' j => (m ((c : Thread nD τ).loc main_arg3) : S4096x512.Idx → EReal) (ix2 q' j))
    (fun q' => (m ((c : Thread nD τ).loc main_arg1) : S32000x4096.Idx → EReal) (ix2 (Cert.Mlp.rowOf (idAt m c n)) q')) q

/-- The 8192 × 4096 array the region leaves. -/
def flat (c : Dev nD) : S8192x4096.Idx → EReal := fun i => rowFlat m c (i 0 : Fin 8192) (i 1 : Fin 4096)

/-- The 4 × 2048 × 4096 result: row `2048 b + s` of `flat` at `(b, s)`. -/
def result (c : Dev nD) : S4x2048x4096.Idx → EReal := fun i =>
  rowFlat m c (⟨2048 * (i 0 : Fin 4).val + (i 1 : Fin 2048).val, by have h0 : (i 0).val < 4 := (i 0).isLt; have h1 : (i 1).val < 2048 := (i 1).isLt; omega⟩ : Fin 8192)
    (i 2 : Fin 4096)

/-! ## The windows' blocks as parts of their arrays -/

/-- The printed index maps over the 32 points: the row-tiled windows move with the point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- Block `t` of the gathered first table is its rows `256 t …`. -/
theorem blk0_apply (c : Dev nD) (t : Fin cfg0.N) (x : S256x768.Idx) (k : S8192x768.Idx)
    (hk0 : (k 0).val = 256 * t.val + (x 0).val) (hk1 : (k 1).val = (x 1).val) :
    (iblk m c 0 t : Vec Ideal S256x768 .f32) x = (V m c main_v1 : S8192x768.Idx → EReal) k := by
  obtain ⟨e0, e1, -⟩ := idx_facts t
  unfold iblk
  rw [View.read_apply]
  show V m c main_v1 _ = V m c main_v1 _
  congr 1
  funext a
  apply Fin.ext
  match a with
  | ⟨0, _⟩ => show win0_0.index t 0 * 256 + 1 * (x 0).val = (k 0).val; rw [e0, hk0]; omega
  | ⟨1, _⟩ => show win0_0.index t 1 * 768 + 1 * (x 1).val = (k 1).val; rw [e1, hk1]; omega

/-- Block `t` of the gathered second table is its rows `256 t …`. -/
theorem blk1_apply (c : Dev nD) (t : Fin cfg0.N) (x : S256x4096.Idx) (k : S8192x4096.Idx)
    (hk0 : (k 0).val = 256 * t.val + (x 0).val) (hk1 : (k 1).val = (x 1).val) :
    (iblk m c 1 t : Vec Ideal S256x4096 .f32) x = (V m c main_v2 : S8192x4096.Idx → EReal) k := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t 0 * 256 + 1 * (x 0).val = (k 0).val; rw [e0, hk0]; omega
  | ⟨1, _⟩ => show win0_1.index t 1 * 4096 + 1 * (x 1).val = (k 1).val; rw [e1, hk1]; omega

/-- The first weight matrix is staged whole at every point. -/
theorem blk2_apply (c : Dev nD) (t : Fin cfg0.N) (x : S512x768.Idx) :
    (iblk m c 2 t : Vec Ideal S512x768 .bf16) x = (V m c main_v3 : S512x768.Idx → EReal) x := by
  obtain ⟨-, -, -, -, e0, e1, -⟩ := idx_facts t
  unfold iblk
  rw [View.read_apply]
  show V m c main_v3 _ = V m c main_v3 _
  congr 1
  funext a
  apply Fin.ext
  match a with
  | ⟨0, _⟩ => show win0_2.index t 0 * 512 + 1 * (x 0).val = (x 0).val; rw [e0]; omega
  | ⟨1, _⟩ => show win0_2.index t 1 * 768 + 1 * (x 1).val = (x 1).val; rw [e1]; omega

/-- The second weight matrix is staged whole at every point. -/
theorem blk3_apply (c : Dev nD) (t : Fin cfg0.N) (x : S4096x512.Idx) :
    (iblk m c 3 t : Vec Ideal S4096x512 .bf16) x = (V m c main_v4 : S4096x512.Idx → EReal) x := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_3.index t 0 * 4096 + 1 * (x 0).val = (x 0).val; rw [e0]; omega
  | ⟨1, _⟩ => show win0_3.index t 1 * 512 + 1 * (x 1).val = (x 1).val; rw [e1]; omega

/-- The scale vector is staged whole at every point, and no host operation wrote it. -/
theorem blk4_apply (c : Dev nD) (t : Fin cfg0.N) (x : S512.Idx) :
    (iblk m c 4 t : Vec Ideal S512 .f32) x = (m ((c : Thread nD τ).loc main_arg4) : S512.Idx → EReal) x := by
  obtain ⟨-, -, -, -, -, -, -, -, e0, -⟩ := idx_facts t
  unfold iblk
  rw [View.read_apply]
  show V m c main_arg4 _ = _
  rw [V_main_arg4]
  congr 1
  funext a
  apply Fin.ext
  match a with
  | ⟨0, _⟩ => show win0_4.index t 0 * 512 + 1 * (x 0).val = (x 0).val; rw [e0]; omega

/-- The shift vector likewise. -/
theorem blk5_apply (c : Dev nD) (t : Fin cfg0.N) (x : S512.Idx) :
    (iblk m c 5 t : Vec Ideal S512 .f32) x = (m ((c : Thread nD τ).loc main_arg5) : S512.Idx → EReal) x := by
  obtain ⟨-, -, -, -, -, -, -, -, -, e0, -⟩ := idx_facts t
  unfold iblk
  rw [View.read_apply]
  show V m c main_arg5 _ = _
  rw [V_main_arg5]
  congr 1
  funext a
  apply Fin.ext
  match a with
  | ⟨0, _⟩ => show win0_5.index t 0 * 512 + 1 * (x 0).val = (x 0).val; rw [e0]; omega

/-! ## What a point writes back, and the array after the region -/

/-- Row `256 t + p` of the flat arrays. -/
def rowAt (t : Fin cfg0.N) (p : Fin 256) : Fin 8192 :=
  ⟨256 * t.val + p.val, by have h : cfg0.N = 32 := N_0; have := t.isLt; have := p.isLt; omega⟩

/-- What point `t` writes back is block `t` of `flat`, on ids in range. -/
theorem flushed_eq (c : Dev nD) (hin : ∀ n : Fin 8192, Cert.Mlp.InRange (idAt m c n)) (t : Fin cfg0.N) :
    (dats m 0 c).flushed 6 t = ((cfg0.win 6).blk t).view.read (Elt Ideal) (flat m c) := by
  show (cfg0.win 6).cut (grid0.coords t) ((dats m 0 c).after 6 t) = _
  rw [after0_6]
  unfold out0_6
  rw [View.canon_unit_zero hz2]
  simp only [View.ld_unit_zero (S := S256x768) hz2, View.ld_unit_zero (S := S256x4096) hz2,
    View.ld_unit_zero (S := S512x768) hz2, View.ld_unit_zero (S := S4096x512) hz2, View.ld_unit_zero (S := S512) hz1]
  funext y
  obtain ⟨p, q, rfl⟩ : ∃ (p : Fin 256) (q : Fin 4096), y = ix2 p q := ⟨y 0, y 1, eq_ix2 y⟩
  rw [View.read_apply]
  show k0_pay1 (F := Ideal) (k0_pay2 (iblk m c 0 t) (iblk m c 2 t) (iblk m c 4 t) (iblk m c 5 t) (iblk m c 3 t)) (iblk m c 1 t) (ix2 p q)
      = flat m c (((cfg0.win 6).blk t).view.emb (ix2 p q))
  refine (pay_apply (iblk m c 0 t) (iblk m c 1 t) (iblk m c 2 t) (iblk m c 3 t) (iblk m c 4 t) (iblk m c 5 t) p q).trans ?_
  obtain ⟨-, -, -, -, -, -, -, -, -, -, e0, e1⟩ := idx_facts t
  have c0 : ((((cfg0.win 6).blk t).view.emb (ix2 p q)) 0 : Fin 8192) = rowAt t p := Fin.ext (by
    show win0_6.index t 0 * 256 + 1 * p.val = 256 * t.val + p.val
    rw [e0]; omega)
  have c1 : ((((cfg0.win 6).blk t).view.emb (ix2 p q)) 1 : Fin 4096) = q := Fin.ext (by
    show win0_6.index t 1 * 4096 + 1 * q.val = q.val
    rw [e1]; omega)
  unfold flat
  rw [c0, c1]
  unfold rowFlat
  have h0 : (fun k : Fin 768 => (iblk m c 0 t : Vec Ideal S256x768 .f32) (ix2 p k))
      = fun k => (m ((c : Thread nD τ).loc main_arg0) : S32000x768.Idx → EReal) (ix2 (Cert.Mlp.rowOf (idAt m c (rowAt t p))) k) :=
    funext fun k => (blk0_apply m c t (ix2 p k) (ix2 (rowAt t p) k) rfl rfl).trans (V_real m c (rowAt t p) k (hin _))
  have h1 : (fun q' : Fin 4096 => (iblk m c 1 t : Vec Ideal S256x4096 .f32) (ix2 p q'))
      = fun q' => (m ((c : Thread nD τ).loc main_arg1) : S32000x4096.Idx → EReal) (ix2 (Cert.Mlp.rowOf (idAt m c (rowAt t p))) q') :=
    funext fun q' => (blk1_apply m c t (ix2 p q') (ix2 (rowAt t p) q') rfl rfl).trans (V_llama m c (rowAt t p) q' (hin _))
  have h2 : (fun (j : Fin 512) (k : Fin 768) => (iblk m c 2 t : Vec Ideal S512x768 .bf16) (ix2 j k))
      = fun j k => (m ((c : Thread nD τ).loc main_arg2) : S512x768.Idx → EReal) (ix2 j k) :=
    funext fun j => funext fun k => (blk2_apply m c t (ix2 j k)).trans (V_w1 m c (ix2 j k))
  have h3 : (fun (q' : Fin 4096) (j : Fin 512) => (iblk m c 3 t : Vec Ideal S4096x512 .bf16) (ix2 q' j))
      = fun q' j => (m ((c : Thread nD τ).loc main_arg3) : S4096x512.Idx → EReal) (ix2 q' j) :=
    funext fun q' => funext fun j => (blk3_apply m c t (ix2 q' j)).trans (V_w2 m c (ix2 q' j))
  have h4 : (fun j : Fin 512 => (iblk m c 4 t : Vec Ideal S512 .f32) (ix1 j))
      = fun j => (m ((c : Thread nD τ).loc main_arg4) : S512.Idx → EReal) (ix1 j) := funext fun j => blk4_apply m c t (ix1 j)
  have h5 : (fun j : Fin 512 => (iblk m c 5 t : Vec Ideal S512 .f32) (ix1 j))
      = fun j => (m ((c : Thread nD τ).loc main_arg5) : S512.Idx → EReal) (ix1 j) := funext fun j => blk5_apply m c t (ix1 j)
  exact (congrArg (fun f => Cert.Mlp.outRow f _ _ _ _ _ q) h0).trans <|
    (congrArg (fun f => Cert.Mlp.outRow _ f _ _ _ _ q) h2).trans <|
    (congrArg (fun f => Cert.Mlp.outRow _ _ f _ _ _ q) h4).trans <|
    (congrArg (fun f => Cert.Mlp.outRow _ _ _ f _ _ q) h5).trans <|
    (congrArg (fun f => Cert.Mlp.outRow _ _ _ _ f _ q) h3).trans <|
    (congrArg (fun f => Cert.Mlp.outRow _ _ _ _ _ f q) h1)

/-- An index of the result array is in point `t`'s block iff each coordinate is in the block's range. -/
theorem mem_blk (t : Fin cfg0.N) (i : S8192x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v5).slice (win0_6.rect t)).set ↔ _
  rw [View.set_slice_whole, Rect.mem_set_unit]
  exact Iff.rfl

/-- The 32 blocks tile the result array, so it ends holding `flat`. -/
theorem final (c : Dev nD) (hin : ∀ n : Fin 8192, Cert.Mlp.InRange (idAt m c n)) :
    (dats m 0 c).arrAt 6 cfg0.N = flat m c :=
  (dats m 0 c).arrAt_eq_of_cover 6 (flat m c) (fun t _ => flushed_eq m c hin t) fun i => by
    have hi0 : (i 0).val < 8192 := (i 0).isLt
    have hi1 : (i 1).val < 4096 := (i 1).isLt
    have hN : cfg0.N = 32 := N_0
    let t : Fin cfg0.N := ⟨(i 0).val / 256, by omega⟩
    obtain ⟨-, -, -, -, -, -, -, -, -, -, e0, e1⟩ := idx_facts t
    refine ⟨t, flush0_6 t, ?_⟩
    rw [mem_blk]
    intro a
    match a with
    | ⟨0, _⟩ =>
      show win0_6.index t 0 * 256 ≤ (i 0).val ∧ (i 0).val < win0_6.index t 0 * 256 + 256
      rw [e0]; show (i 0).val / 256 * 256 ≤ (i 0).val ∧ (i 0).val < (i 0).val / 256 * 256 + 256; omega
    | ⟨1, _⟩ =>
      show win0_6.index t 1 * 4096 ≤ (i 1).val ∧ (i 1).val < win0_6.index t 1 * 4096 + 4096
      rw [e1]; omega

/-! ## The run, read -/

/-- The reshape after the region, read at `(b, s, q)`. -/
theorem tail_eq (c : Dev nD) (hin : ∀ n : Fin 8192, Cert.Mlp.InRange (idAt m c n)) :
    (Pipeline.afterTail₀ cfgs (dats m) 0 (V0 m) [hostOps1] c main_v6 : S4x2048x4096.Idx → EReal) = result m c := by
  unfold Pipeline.afterTail₀
  show StableHlo.after hostOps1 _ (Proc.devRef .tc main_v6) = _
  after_results
  rw [Pipeline.withArrays_arr spec0 launch0.win.arr_inj c _ _ 6]
  rw [final m c hin]
  funext i
  refine (shapeCast_apply (flat m c) shapeCasts_S8192x4096_S4x2048x4096 i
    (ix2 (⟨2048 * (i 0 : Fin 4).val + (i 1 : Fin 2048).val, by have h0 : (i 0).val < 4 := (i 0).isLt; have h1 : (i 1).val < 2048 := (i 1).isLt; omega⟩ : Fin 8192) (i 2 : Fin 4096)) ?_).trans rfl
  rw [Shape.rowMajor_val_two, Shape.rowMajor_val_three]
  show (2048 * (i 0).val + (i 1).val) * 4096 + (i 2).val = ((i 0).val * 2048 + (i 1).val) * 4096 + (i 2).val
  omega

/-- Every weakly fair execution of the kernel program terminates with the result at `result` and the arguments
    unchanged, on ids in range. -/
theorem run (hin : ∀ (c : Dev nD) (n : Fin 8192), Cert.Mlp.InRange (idAt m c n)) :
    θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v6 (Pipeline.mem_restRefs_of main_v6 (by decide) (by decide))).trans (tail_eq m c (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KerValue

end
-- ==== Proof.RefTerm.lean ====
/-
  What the reference computes, as one term of its seven argument arrays: the operations of its main function
  composed in order, cut into the stages of the mathematics.

      hidden  = real · w1ᵀ                                   (32000 × 512)
      centred = hidden − mean over each row
      normed  = centred · rsqrt (mean of centred² + ε) · γ + β
      elu     = select (normed > 0, normed, 1 · expm1 (select (normed > 0, 0, normed)))
      table   = elu · w2ᵀ                                    (32000 × 4096)
      out     = table[ids'] + second_table[ids']             (4 × 2048 × 4096)

  where ids' wraps a negative id by the table height.
-/
import proofs.«423969_j36627481100850_1_alg».proof.Proof.Gen.ReferenceIdeal

noncomputable section

namespace Cert.ReferenceIdeal.RefValue

open Idealize.ShloMosaic Cert.ReferenceIdeal Cert.ReferenceIdeal.Facts₀

variable {F : FTy → Type} [FloatOps F]

/-- The first projection of every table row. -/
def refHidden (a0 : FVec F S32000x768 .f32) (a2 : FVec F S512x768 .f32) : FVec F S32000x512 .f32 :=
  Host.dotGeneral dot_S32000x768_S512x768_S32000x512_1_1_0_0_n_n none a0 a2

/-- Each row's mean, as a column. -/
def refMean (v0 : FVec F S32000x512 .f32) : FVec F S32000x1 .f32 :=
  Host.divf
    (broadcastInDim S32000x1 ![0] bcast_S32000_S32000x1_0
      (Host.reduceAdd v0 (constant S_ .f32 0x00000000#32) reducesTo_S32000x512_S32000_d1 h_S_))
    (broadcastInDim S32000x1 ![] bcast_S_S32000x1 (constant S_ .f32 0x44000000#32))

/-- Each entry minus its row's mean. -/
def refCentred (v0 : FVec F S32000x512 .f32) : FVec F S32000x512 .f32 :=
  subf v0 (broadcastInDim S32000x512 ![0, 1] bcast_S32000x1_S32000x512_0_1 (refMean v0))

/-- Each row's variance plus the offset, as a column. -/
def refVarEps (v0 : FVec F S32000x512 .f32) : FVec F S32000x1 .f32 :=
  addf
    (Host.divf
      (broadcastInDim S32000x1 ![0] bcast_S32000_S32000x1_0
        (Host.reduceAdd (mulf (refCentred v0) (refCentred v0)) (constant S_ .f32 0x00000000#32)
          reducesTo_S32000x512_S32000_d1 h_S_))
      (broadcastInDim S32000x1 ![] bcast_S_S32000x1 (constant S_ .f32 0x44000000#32)))
    (broadcastInDim S32000x1 ![] bcast_S_S32000x1 (constant S_ .f32 0x3727C5AC#32))

/-- Layer normalisation with scale `a4` and shift `a5`. -/
def refNormed (v0 : FVec F S32000x512 .f32) (a4 a5 : FVec F S512 .f32) : FVec F S32000x512 .f32 :=
  addf
    (mulf
      (mulf (refCentred v0) (broadcastInDim S32000x512 ![0, 1] bcast_S32000x1_S32000x512_0_1 (Host.rsqrt (refVarEps v0))))
      (broadcastInDim S32000x512 ![0, 1] bcast_S1x512_S32000x512_0_1 (broadcastInDim S1x512 ![1] bcast_S512_S1x512_1 a4)))
    (broadcastInDim S32000x512 ![0, 1] bcast_S1x512_S32000x512_0_1 (broadcastInDim S1x512 ![1] bcast_S512_S1x512_1 a5))

/-- ELU, as the reference spells it. -/
def refElu (x : FVec F S32000x512 .f32) : FVec F S32000x512 .f32 :=
  select (cmpf .ogt x (broadcastInDim S32000x512 ![] bcast_S_S32000x512 (constant S_ .f32 0x00000000#32))) x
    (mulf (broadcastInDim S32000x512 ![] bcast_S_S32000x512 (constant S_ .f32 0x3F800000#32))
      (Host.expm1
        (select (cmpf .ogt x (broadcastInDim S32000x512 ![] bcast_S_S32000x512 (constant S_ .f32 0x00000000#32)))
          (broadcastInDim S32000x512 ![] bcast_S_S32000x512 (constant S_ .f32 0x00000000#32)) x)))

/-- The second projection of every table row. -/
def refTable (a0 : FVec F S32000x768 .f32) (a2 : FVec F S512x768 .f32) (a3 : FVec F S4096x512 .f32)
    (a4 a5 : FVec F S512 .f32) : FVec F S32000x4096 .f32 :=
  Host.dotGeneral dot_S32000x512_S4096x512_S32000x4096_1_1_0_0_n_n none (refElu (refNormed (refHidden a0 a2) a4 a5)) a3

/-- The ids, negative ones wrapped by the table height, as start indices. -/
def refIdx (a6 : IVec S4x2048 32) : IVec S4x2048x1 32 :=
  broadcastInDim S4x2048x1 ![0, 1] bcast_S4x2048_S4x2048x1_0_1
    (select (cmpi .slt a6 (broadcastInDim S4x2048 ![] bcast_S_S4x2048 (constantI S_ 32 0#32)))
      (addi a6 (broadcastInDim S4x2048 ![] bcast_S_S4x2048 (constantI S_ 32 32000#32))) a6)

/-- The reference's result. -/
def refOut (a0 : FVec F S32000x768 .f32) (a1 : FVec F S32000x4096 .f32) (a2 : FVec F S512x768 .f32)
    (a3 : FVec F S4096x512 .f32) (a4 a5 : FVec F S512 .f32) (a6 : IVec S4x2048 32) : FVec F S4x2048x4096 .f32 :=
  addf
    (Host.gather gather_S32000x4096_S4x2048x1_S4x2048x4096_2_0_n_n_0_2_14096 (refTable a0 a2 a3 a4 a5) (refIdx a6))
    (Host.gather gather_S32000x4096_S4x2048x1_S4x2048x4096_2_0_n_n_0_2_14096 a1 (refIdx a6))

end Cert.ReferenceIdeal.RefValue

end
-- ==== Proof.RefRun.lean ====
/-
  The reference's run: its main function, with the three outlined functions it calls written out at their call
  sites, is one straight line of sixty-five tensor operations; run from any memory, the result buffer ends at the
  composed term `refOut` of the seven argument arrays, and the arguments are left as they were.
-/
import proofs.«423969_j36627481100850_1_alg».proof.Proof.RefTerm
import Idealize.ShloMosaic.Lib.StableHlo.Run
noncomputable section
namespace Cert.ReferenceIdeal.RefValue
open Cert.ReferenceIdeal Cert.ReferenceIdeal.Gen Idealize.ShloMosaic Idealize.ShloMosaic.TcCoe Idealize.SL.Sem Idealize.ShloMosaic.StableHlo
variable {F : FTy → Type} [FloatOps F]

/-- The main function's operations in order. The first thirty compute the first projection and its layer
    normalisation; the next fifteen are ELU written out: two comparisons with zero, the inner selection (the scalar
    zero converted to its own type, broadcast, selected against the input), the exponential minus one, the product
    with the broadcast one, and the outer selection; the last twenty are the second projection, the wrapped ids
    (computed twice), the two row gathers and their sum. -/
abbrev ops : List (HloOp τ sig (Elt F)) :=
  [ binary main_arg0 main_arg2 main_v0 ((fun l r => Host.dotGeneral dot_S32000x768_S512x768_S32000x512_1_1_0_0_n_n none l r) : (⟨S32000x768, .f32⟩ : BufTy).Contents (Elt F) → (⟨S512x768, .f32⟩ : BufTy).Contents (Elt F) → (⟨S32000x512, .f32⟩ : BufTy).Contents (Elt F)),
    nullary main_cst (constant S_ .f32 0x00000000#32),
    binary main_v0 main_cst main_v1 ((fun x v => Host.reduceAdd x v reducesTo_S32000x512_S32000_d1 h_S_) : (⟨S32000x512, .f32⟩ : BufTy).Contents (Elt F) → (⟨S_, .f32⟩ : BufTy).Contents (Elt F) → (⟨S32000, .f32⟩ : BufTy).Contents (Elt F)),
    unary main_v1 main_v2 (broadcastInDim S32000x1 ![0] bcast_S32000_S32000x1_0 : (⟨S32000, .f32⟩ : BufTy).Contents (Elt F) → (⟨S32000x1, .f32⟩ : BufTy).Contents (Elt F)),
    nullary main_cst_0 (constant S_ .f32 0x44000000#32),
    unary main_cst_0 main_v3 (broadcastInDim S32000x1 ![] bcast_S_S32000x1 : (⟨S_, .f32⟩ : BufTy).Contents (Elt F) → (⟨S32000x1, .f32⟩ : BufTy).Contents (Elt F)),
    binary main_v2 main_v3 main_v4 (Host.divf : (⟨S32000x1, .f32⟩ : BufTy).Contents (Elt F) → (⟨S32000x1, .f32⟩ : BufTy).Contents (Elt F) → (⟨S32000x1, .f32⟩ : BufTy).Contents (Elt F)),
    unary main_v4 main_v5 (broadcastInDim S32000x512 ![0, 1] bcast_S32000x1_S32000x512_0_1 : (⟨S32000x1, .f32⟩ : BufTy).Contents (Elt F) → (⟨S32000x512, .f32⟩ : BufTy).Contents (Elt F)),
    binary main_v0 main_v5 main_v6 (subf : (⟨S32000x512, .f32⟩ : BufTy).Contents (Elt F) → (⟨S32000x512, .f32⟩ : BufTy).Contents (Elt F) → (⟨S32000x512, .f32⟩ : BufTy).Contents (Elt F)),
    binary main_v6 main_v6 main_v7 (mulf : (⟨S32000x512, .f32⟩ : BufTy).Contents (Elt F) → (⟨S32000x512, .f32⟩ : BufTy).Contents (Elt F) → (⟨S32000x512, .f32⟩ : BufTy).Contents (Elt F)),
    nullary main_cst_1 (constant S_ .f32 0x00000000#32),
    binary main_v7 main_cst_1 main_v8 ((fun x v => Host.reduceAdd x v reducesTo_S32000x512_S32000_d1 h_S_) : (⟨S32000x512, .f32⟩ : BufTy).Contents (Elt F) → (⟨S_, .f32⟩ : BufTy).Contents (Elt F) → (⟨S32000, .f32⟩ : BufTy).Contents (Elt F)),
    unary main_v8 main_v9 (broadcastInDim S32000x1 ![0] bcast_S32000_S32000x1_0 : (⟨S32000, .f32⟩ : BufTy).Contents (Elt F) → (⟨S32000x1, .f32⟩ : BufTy).Contents (Elt F)),
    nullary main_cst_2 (constant S_ .f32 0x44000000#32),
    unary main_cst_2 main_v10 (broadcastInDim S32000x1 ![] bcast_S_S32000x1 : (⟨S_, .f32⟩ : BufTy).Contents (Elt F) → (⟨S32000x1, .f32⟩ : BufTy).Contents (Elt F)),
    binary main_v9 main_v10 main_v11 (Host.divf : (⟨S32000x1, .f32⟩ : BufTy).Contents (Elt F) → (⟨S32000x1, .f32⟩ : BufTy).Contents (Elt F) → (⟨S32000x1, .f32⟩ : BufTy).Contents (Elt F)),
    unary main_v4 main_v12 (broadcastInDim S32000x512 ![0, 1] bcast_S32000x1_S32000x512_0_1 : (⟨S32000x1, .f32⟩ : BufTy).Contents (Elt F) → (⟨S32000x512, .f32⟩ : BufTy).Contents (Elt F)),
    binary main_v0 main_v12 main_v13 (subf : (⟨S32000x512, .f32⟩ : BufTy).Contents (Elt F) → (⟨S32000x512, .f32⟩ : BufTy).Contents (Elt F) → (⟨S32000x512, .f32⟩ : BufTy).Contents (Elt F)),
    nullary main_cst_3 (constant S_ .f32 0x3727C5AC#32),
    unary main_cst_3 main_v14 (broadcastInDim S32000x1 ![] bcast_S_S32000x1 : (⟨S_, .f32⟩ : BufTy).Contents (Elt F) → (⟨S32000x1, .f32⟩ : BufTy).Contents (Elt F)),
    binary main_v11 main_v14 main_v15 (addf : (⟨S32000x1, .f32⟩ : BufTy).Contents (Elt F) → (⟨S32000x1, .f32⟩ : BufTy).Contents (Elt F) → (⟨S32000x1, .f32⟩ : BufTy).Contents (Elt F)),
    unary main_v15 main_v16 (Host.rsqrt : (⟨S32000x1, .f32⟩ : BufTy).Contents (Elt F) → (⟨S32000x1, .f32⟩ : BufTy).Contents (Elt F)),
    unary main_v16 main_v17 (broadcastInDim S32000x512 ![0, 1] bcast_S32000x1_S32000x512_0_1 : (⟨S32000x1, .f32⟩ : BufTy).Contents (Elt F) → (⟨S32000x512, .f32⟩ : BufTy).Contents (Elt F)),
    binary main_v13 main_v17 main_v18 (mulf : (⟨S32000x512, .f32⟩ : BufTy).Contents (Elt F) → (⟨S32000x512, .f32⟩ : BufTy).Contents (Elt F) → (⟨S32000x512, .f32⟩ : BufTy).Contents (Elt F)),
    unary main_arg4 main_v19 (broadcastInDim S1x512 ![1] bcast_S512_S1x512_1 : (⟨S512, .f32⟩ : BufTy).Contents (Elt F) → (⟨S1x512, .f32⟩ : BufTy).Contents (Elt F)),
    unary main_v19 main_v20 (broadcastInDim S32000x512 ![0, 1] bcast_S1x512_S32000x512_0_1 : (⟨S1x512, .f32⟩ : BufTy).Contents (Elt F) → (⟨S32000x512, .f32⟩ : BufTy).Contents (Elt F)),
    binary main_v18 main_v20 main_v21 (mulf : (⟨S32000x512, .f32⟩ : BufTy).Contents (Elt F) → (⟨S32000x512, .f32⟩ : BufTy).Contents (Elt F) → (⟨S32000x512, .f32⟩ : BufTy).Contents (Elt F)),
    unary main_arg5 main_v22 (broadcastInDim S1x512 ![1] bcast_S512_S1x512_1 : (⟨S512, .f32⟩ : BufTy).Contents (Elt F) → (⟨S1x512, .f32⟩ : BufTy).Contents (Elt F)),
    unary main_v22 main_v23 (broadcastInDim S32000x512 ![0, 1] bcast_S1x512_S32000x512_0_1 : (⟨S1x512, .f32⟩ : BufTy).Contents (Elt F) → (⟨S32000x512, .f32⟩ : BufTy).Contents (Elt F)),
    binary main_v21 main_v23 main_v24 (addf : (⟨S32000x512, .f32⟩ : BufTy).Contents (Elt F) → (⟨S32000x512, .f32⟩ : BufTy).Contents (Elt F) → (⟨S32000x512, .f32⟩ : BufTy).Contents (Elt F)),
    TRef.nullary main_call0.cst (constant S_ .f32 0x00000000#32),
    TRef.unary main_call0.cst main_call0.v0 (broadcastInDim S32000x512 ![] bcast_S_S32000x512),
    TRef.binary (.of main_v24) main_call0.v0 main_call0.v1 (cmpf .ogt),
    TRef.nullary main_call0.cst_0 (constant S_ .f32 0x00000000#32),
    TRef.unary main_call0.cst_0 main_call0.v2 (broadcastInDim S32000x512 ![] bcast_S_S32000x512),
    TRef.binary (.of main_v24) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S32000x512 ![] bcast_S_S32000x512),
    TRef.ternary main_call0.v3 main_call0.call0.v1 (.of main_v24) main_call0.call0.v2 select,
    TRef.unary main_call0.call0.v2 main_call0.v5 Host.expm1,
    TRef.nullary main_call0.cst_2 (constant S_ .f32 0x3F800000#32),
    TRef.unary main_call0.cst_2 main_call0.v6 (broadcastInDim S32000x512 ![] bcast_S_S32000x512),
    TRef.binary main_call0.v6 main_call0.v5 main_call0.v7 mulf,
    TRef.ternary main_call0.v1 (.of main_v24) main_call0.v7 main_call0.call1.v0 select,
    binary main_v25 main_arg3 main_v26 ((fun l r => Host.dotGeneral dot_S32000x512_S4096x512_S32000x4096_1_1_0_0_n_n none l r) : (⟨S32000x512, .f32⟩ : BufTy).Contents (Elt F) → (⟨S4096x512, .f32⟩ : BufTy).Contents (Elt F) → (⟨S32000x4096, .f32⟩ : BufTy).Contents (Elt F)),
    nullary main_c (constantI S_ 32 0#32),
    unary main_c main_v27 (broadcastInDim S4x2048 ![] bcast_S_S4x2048 : (⟨S_, .i32⟩ : BufTy).Contents (Elt F) → (⟨S4x2048, .i32⟩ : BufTy).Contents (Elt F)),
    binary main_arg6 main_v27 main_v28 (cmpi .slt : (⟨S4x2048, .i32⟩ : BufTy).Contents (Elt F) → (⟨S4x2048, .i32⟩ : BufTy).Contents (Elt F) → (⟨S4x2048, .i1⟩ : BufTy).Contents (Elt F)),
    nullary main_c_4 (constantI S_ 32 32000#32),
    unary main_c_4 main_v29 (broadcastInDim S4x2048 ![] bcast_S_S4x2048 : (⟨S_, .i32⟩ : BufTy).Contents (Elt F) → (⟨S4x2048, .i32⟩ : BufTy).Contents (Elt F)),
    binary main_arg6 main_v29 main_v30 (addi : (⟨S4x2048, .i32⟩ : BufTy).Contents (Elt F) → (⟨S4x2048, .i32⟩ : BufTy).Contents (Elt F) → (⟨S4x2048, .i32⟩ : BufTy).Contents (Elt F)),
    ternary main_v28 main_v30 main_arg6 main_v31 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v31 main_v32 (broadcastInDim S4x2048x1 ![0, 1] bcast_S4x2048_S4x2048x1_0_1 : (⟨S4x2048, .i32⟩ : BufTy).Contents (Elt F) → (⟨S4x2048x1, .i32⟩ : BufTy).Contents (Elt F)),
    binary main_v26 main_v32 main_v33 ((fun x i => Host.gather gather_S32000x4096_S4x2048x1_S4x2048x4096_2_0_n_n_0_2_14096 x i) : (⟨S32000x4096, .f32⟩ : BufTy).Contents (Elt F) → (⟨S4x2048x1, .i32⟩ : BufTy).Contents (Elt F) → (⟨S4x2048x4096, .f32⟩ : BufTy).Contents (Elt F)),
    nullary main_c_5 (constantI S_ 32 0#32),
    unary main_c_5 main_v34 (broadcastInDim S4x2048 ![] bcast_S_S4x2048 : (⟨S_, .i32⟩ : BufTy).Contents (Elt F) → (⟨S4x2048, .i32⟩ : BufTy).Contents (Elt F)),
    binary main_arg6 main_v34 main_v35 (cmpi .slt : (⟨S4x2048, .i32⟩ : BufTy).Contents (Elt F) → (⟨S4x2048, .i32⟩ : BufTy).Contents (Elt F) → (⟨S4x2048, .i1⟩ : BufTy).Contents (Elt F)),
    nullary main_c_6 (constantI S_ 32 32000#32),
    unary main_c_6 main_v36 (broadcastInDim S4x2048 ![] bcast_S_S4x2048 : (⟨S_, .i32⟩ : BufTy).Contents (Elt F) → (⟨S4x2048, .i32⟩ : BufTy).Contents (Elt F)),
    binary main_arg6 main_v36 main_v37 (addi : (⟨S4x2048, .i32⟩ : BufTy).Contents (Elt F) → (⟨S4x2048, .i32⟩ : BufTy).Contents (Elt F) → (⟨S4x2048, .i32⟩ : BufTy).Contents (Elt F)),
    ternary main_v35 main_v37 main_arg6 main_v38 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v38 main_v39 (broadcastInDim S4x2048x1 ![0, 1] bcast_S4x2048_S4x2048x1_0_1 : (⟨S4x2048, .i32⟩ : BufTy).Contents (Elt F) → (⟨S4x2048x1, .i32⟩ : BufTy).Contents (Elt F)),
    binary main_arg1 main_v39 main_v40 ((fun x i => Host.gather gather_S32000x4096_S4x2048x1_S4x2048x4096_2_0_n_n_0_2_14096 x i) : (⟨S32000x4096, .f32⟩ : BufTy).Contents (Elt F) → (⟨S4x2048x1, .i32⟩ : BufTy).Contents (Elt F) → (⟨S4x2048x4096, .f32⟩ : BufTy).Contents (Elt F)),
    binary main_v33 main_v40 main_v41 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 4096 in
/-- The main function is that straight line: with the called functions' bodies substituted and the sequencing
    reassociated, both sides are the same chain of steps. -/
theorem main_eq (c : Dev nD) : main (F := F) c = seq ops := by
  simp only [main, fn_elu.body, fn_where.body, fn_where_0.body, seq, bind_assoc, pure_bind]

/-- The signature scopes no buffer of the core to a region. -/
theorem scopedRefs_eq : (Finset.univ.filter fun b : Ref sig .tc => b.isScoped) = ∅ := by decide
/-- Nor does it scope a semaphore. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩

attribute [local irreducible] Host.reduceAdd Host.gather in
set_option maxRecDepth 8192 in
/-- What the result buffer holds after the line, from any contents: each operation's value substituted for the
    buffer it writes, down to the argument buffers, is the composed term; the moves of a value between a buffer
    and the typed name a called function knows it by are the identity. -/
theorem out_eq (V : Valuation τ sig (Elt F)) :
    after ops V (main_v41 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-! No operation writes an argument buffer: each holds after the line what it held before. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of the
    main function terminates with the result buffer at `refOut` of the arguments' launch contents and the seven
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefValue
end
-- ==== Proof.RefTable.lean ====
/-
  The reference's row chain, read at one entry of its table.

  The reference runs every stage on the whole 32000-row table.  Each stage acts row by row, so entry (r, ·) of a
  stage's result depends on row r of its operand alone:

      hidden (r, j)  = Σ_k real (r, k) · w1 (j, k)
      mean (r, 0)    = (0 + Σ_j hidden (r, j)) / 512
      centred (r, j) = hidden (r, j) − mean (r, 0)
      var+ε (r, 0)   = (0 + Σ_j centred (r, j)²) / 512 + ε
      normed (r, j)  = centred (r, j) · rsqrt (var+ε (r, 0)) · γ j + β j
      elu (r, j)     = ELU (normed (r, j))
      table (r, q)   = Σ_j elu (r, j) · w2 (q, j)

  One lemma per stage states this at explicit coordinates and for an arbitrary operand array, in the vocabulary of
  the one-row mathematics (hidden, mean, var, normed, elu).  Three kinds of fact carry the proofs:

  * a product contracting axis 1 of both operands is, at (r, c), the sum over k of left (r, k) · right (c, k): the
    contraction position has one coordinate, and the sum is re-indexed through it;
  * a sum over axis 1 from the zero word is, at r, the sum over k of the entries (r, k), since 0 + x = x;
  * a broadcast read at an entry: a vector as a column reads its entry r at (r, 0); a column repeated along the rows
    reads (r, 0) at (r, j); a vector as a row repeated down the columns reads its entry j at (r, j); a scalar reads
    itself everywhere.

  The host's quotient, reciprocal square root and exp(x) − 1 are, on the extended reals, the ideal division,
  reciprocal square root and exp x − 1 entry by entry, and the reference's spelling of the activation (a select
  between y and 1 · (exp y' − 1), y' being y with its positive values replaced by 0) is ELU.
-/
import proofs.«423969_j36627481100850_1_alg».proof.Proof.RefTerm
import proofs.«423969_j36627481100850_1_alg».proof.Proof.Spec
import proofs.«423969_j36627481100850_1_alg».proof.Proof.LibDenseLayer
import Idealize.ShloMosaic.Lib.ValueIdx
import Idealize.ShloMosaic.Lib.IdealHost
import Idealize.ShloMosaic.Lib.Pipeline.Value
import Idealize.ShloMosaic.PureOps.Ideal.Laws
noncomputable section
namespace Cert.ReferenceIdeal.RefValue
open Idealize.ShloMosaic Idealize.ShloMosaic.ValueIdx Cert.ReferenceIdeal
open scoped BigOperators

/-! ## The two contractions' coordinates

Both products contract axis 1 of each operand: at the result index (r, c) and the contraction position q the left
operand is read at (r, q) and the right operand at (c, q). -/

abbrev dH := dot_S32000x768_S512x768_S32000x512_1_1_0_0_n_n
abbrev dT := dot_S32000x512_S4096x512_S32000x4096_1_1_0_0_n_n

theorem dH_rank : dH.contr.rank = 1 := rfl
theorem dH_size : dH.contr.size ⟨0, by rw [dH_rank]; omega⟩ = 768 := rfl
theorem dH_l0 (j : S32000x512.Idx) (q : dH.contr.Idx) : (dH.lhsIdx j q 0).val = (j 0).val := rfl
theorem dH_l1 (j : S32000x512.Idx) (q : dH.contr.Idx) : (dH.lhsIdx j q 1).val = (q ⟨0, by rw [dH_rank]; omega⟩).val := rfl
theorem dH_r0 (j : S32000x512.Idx) (q : dH.contr.Idx) : (dH.rhsIdx j q 0).val = (j 1).val := rfl
theorem dH_r1 (j : S32000x512.Idx) (q : dH.contr.Idx) : (dH.rhsIdx j q 1).val = (q ⟨0, by rw [dH_rank]; omega⟩).val := rfl

theorem dT_rank : dT.contr.rank = 1 := rfl
theorem dT_size : dT.contr.size ⟨0, by rw [dT_rank]; omega⟩ = 512 := rfl
theorem dT_l0 (j : S32000x4096.Idx) (q : dT.contr.Idx) : (dT.lhsIdx j q 0).val = (j 0).val := rfl
theorem dT_l1 (j : S32000x4096.Idx) (q : dT.contr.Idx) : (dT.lhsIdx j q 1).val = (q ⟨0, by rw [dT_rank]; omega⟩).val := rfl
theorem dT_r0 (j : S32000x4096.Idx) (q : dT.contr.Idx) : (dT.rhsIdx j q 0).val = (j 1).val := rfl
theorem dT_r1 (j : S32000x4096.Idx) (q : dT.contr.Idx) : (dT.rhsIdx j q 1).val = (q ⟨0, by rw [dT_rank]; omega⟩).val := rfl

/-! ## The first projection -/

/-- Entry (r, j) of the first projection is the inner product of table row r with weight row j. -/
theorem refHidden_apply (a0 : FVec Ideal S32000x768 .f32) (a2 : FVec Ideal S512x768 .f32) (r : Fin 32000) (j : Fin 512) :
    refHidden a0 a2 (ix2 r j) = Cert.Mlp.hidden (fun k => a0 (ix2 r k)) (fun j k => a2 (ix2 j k)) j := by
  unfold refHidden
  simp only [Host.dotGeneral]
  rw [Ideal.dotGeneral_apply,
    Cert.Lib.contraction_sum dH 768 dH_rank dH_size a0 a2 (ix2 r j) (fun k => a0 (ix2 r k)) (fun k => a2 (ix2 j k))
      (fun q => congrArg a0 (funext fun ax => Fin.ext (by
        match ax with
        | ⟨0, _⟩ => exact dH_l0 (ix2 r j) q
        | ⟨1, _⟩ => exact dH_l1 (ix2 r j) q)))
      (fun q => congrArg a2 (funext fun ax => Fin.ext (by
        match ax with
        | ⟨0, _⟩ => exact dH_r0 (ix2 r j) q
        | ⟨1, _⟩ => exact dH_r1 (ix2 r j) q)))]
  rfl

/-! ## Broadcasts read at an entry -/

/-- A vector of 32000 entries laid out as a column reads, at (r, 0), its entry r. -/
theorem col_apply {α : Type} (h : S32000.BroadcastsInDim S32000x1 (![0] : Fin 1 → Fin S32000x1.rank)) (v : S32000.Idx → α)
    (r : Fin 32000) : broadcastInDim S32000x1 ![0] h v (ix2 r 0) = v (ix1 r) :=
  broadcastInDim_apply _ h v _ (ix1 r) fun a => by
    match a with
    | ⟨0, _⟩ => rfl

/-- A column repeated along each row reads, at (r, j), the column at (r, 0). -/
theorem ofCol_apply {α : Type} (h : S32000x1.BroadcastsInDim S32000x512 (![0, 1] : Fin 2 → Fin S32000x512.rank))
    (v : S32000x1.Idx → α) (r : Fin 32000) (j : Fin 512) :
    broadcastInDim S32000x512 ![0, 1] h v (ix2 r j) = v (ix2 r 0) :=
  broadcastInDim_apply _ h v _ (ix2 r 0) fun a => by
    match a with
    | ⟨0, _⟩ => rfl
    | ⟨1, _⟩ => rfl

/-- A vector of 512 entries laid out as a row and repeated down every column reads, at (r, j), its entry j. -/
theorem ofVec_apply {α : Type} (h₁ : S512.BroadcastsInDim S1x512 (![1] : Fin 1 → Fin S1x512.rank))
    (h₂ : S1x512.BroadcastsInDim S32000x512 (![0, 1] : Fin 2 → Fin S32000x512.rank)) (v : S512.Idx → α)
    (r : Fin 32000) (j : Fin 512) :
    broadcastInDim S32000x512 ![0, 1] h₂ (broadcastInDim S1x512 ![1] h₁ v) (ix2 r j) = v (ix1 j) := by
  rw [broadcastInDim_apply _ h₂ _ _ (ix2 (0 : Fin 1) j) fun a => by
    match a with
    | ⟨0, _⟩ => rfl
    | ⟨1, _⟩ => rfl]
  exact broadcastInDim_apply _ h₁ v _ (ix1 j) fun a => by
    match a with
    | ⟨0, _⟩ => rfl

/-! ## A row's mean -/

/-- Summing a 32000 × 512 array over axis 1 leaves a vector of 32000 entries. -/
theorem reduces_row : S32000x512.Reduces [1] S32000 := by decide

/-- The index a sum over axis 1 inserts at row r is (r, k). -/
theorem lift_row (h : S32000x512.Reduces [1] S32000) (r : Fin 32000) (k : Fin (S32000x512.size 1)) :
    h.lift (ix1 r) k = ix2 r (k : Fin 512) := by
  funext a
  apply Fin.ext
  match a with
  | ⟨0, _⟩ => rfl
  | ⟨1, _⟩ => rfl

/-- The sum over each row from the zero word, laid out as a column and divided by the word 512 broadcast to a column:
    at (r, 0) it is the sum of row r divided by 512.  Both the mean and the variance are of this form. -/
theorem rowAvg_apply (x : FVec Ideal S32000x512 .f32) (r : Fin 32000) :
    Host.divf (F := Ideal)
        (broadcastInDim S32000x1 ![0] Facts₀.bcast_S32000_S32000x1_0
          (Host.reduceAdd (F := Ideal) x (constant (F := Ideal) S_ .f32 0x00000000#32) Facts₀.reducesTo_S32000x512_S32000_d1
            Facts₀.h_S_))
        (broadcastInDim S32000x1 ![] Facts₀.bcast_S_S32000x1 (constant (F := Ideal) S_ .f32 0x44000000#32)) (ix2 r 0)
      = Ideal.div (∑ j : Fin 512, x (ix2 r j)) Cert.Mlp.c512 := by
  rw [hostDivf_apply, col_apply, hostReduceAdd_apply, broadcastInDim_scalar_apply, constant_apply, constant_apply,
    Ideal.hostReduceAdd_single Facts₀.reducesTo_S32000x512_S32000_d1 reduces_row, Ideal.ofBits_zero_f32, zero_add]
  unfold Cert.Mlp.c512
  exact congrArg (fun t => Ideal.div t _) (Finset.sum_congr rfl fun k _ => congrArg x (lift_row reduces_row r k))

/-- Each row's mean. -/
theorem refMean_apply (v0 : FVec Ideal S32000x512 .f32) (r : Fin 32000) :
    refMean v0 (ix2 r 0) = Cert.Mlp.mean (fun j => v0 (ix2 r j)) := by
  unfold refMean Cert.Mlp.mean
  exact rowAvg_apply v0 r

/-- Each entry minus its row's mean. -/
theorem refCentred_apply (v0 : FVec Ideal S32000x512 .f32) (r : Fin 32000) (j : Fin 512) :
    refCentred v0 (ix2 r j) = v0 (ix2 r j) - Cert.Mlp.mean (fun j => v0 (ix2 r j)) := by
  unfold refCentred
  rw [subf_apply, ofCol_apply, refMean_apply]

/-- A row's variance plus the offset. -/
theorem refVarEps_apply (v0 : FVec Ideal S32000x512 .f32) (r : Fin 32000) :
    refVarEps v0 (ix2 r 0) = Cert.Mlp.var (fun j => v0 (ix2 r j)) + Cert.Mlp.ceps := by
  unfold refVarEps
  rw [addf_apply, rowAvg_apply, broadcastInDim_scalar_apply, constant_apply]
  unfold Cert.Mlp.var Cert.Mlp.ceps
  exact congrArg (fun t => Ideal.div t _ + _) (Finset.sum_congr rfl fun k _ => by rw [mulf_apply, refCentred_apply])

/-- Layer normalisation of row r at entry j. -/
theorem refNormed_apply (v0 : FVec Ideal S32000x512 .f32) (a4 a5 : FVec Ideal S512 .f32) (r : Fin 32000) (j : Fin 512) :
    refNormed v0 a4 a5 (ix2 r j)
      = Cert.Mlp.normed (fun j => v0 (ix2 r j)) (fun j => a4 (ix1 j)) (fun j => a5 (ix1 j)) j := by
  unfold refNormed
  rw [addf_apply, mulf_apply, mulf_apply, refCentred_apply, ofCol_apply, ofVec_apply, ofVec_apply]
  show _ * FloatOps.hostUnary .rsqrt (refVarEps v0 (ix2 r 0)) * _ + _ = _
  rw [Ideal.hostUnary_rsqrt_def, refVarEps_apply]
  rfl

/-- The activation, entry by entry. -/
theorem refElu_apply (x : FVec Ideal S32000x512 .f32) (r : Fin 32000) (j : Fin 512) :
    refElu x (ix2 r j) = Cert.Mlp.elu (x (ix2 r j)) := by
  unfold refElu
  rw [select_apply, cmpf_apply, mulf_apply, broadcastInDim_scalar_apply, broadcastInDim_scalar_apply, constant_apply, constant_apply]
  show Scalar.select _ _ (_ * FloatOps.hostUnary .expm1 (select _ _ x (ix2 r j))) = _
  rw [Ideal.hostUnary_expm1_def, select_apply, cmpf_apply, broadcastInDim_scalar_apply, constant_apply, Ideal.cmpf_def]
  exact Cert.Mlp.elu_of_select_guarded _

/-! ## The second projection -/

/-- The reference's full table at row `r`, column `q`. -/
theorem refTable_apply (a0 : FVec Ideal S32000x768 .f32) (a2 : FVec Ideal S512x768 .f32) (a3 : FVec Ideal S4096x512 .f32)
    (a4 a5 : FVec Ideal S512 .f32) (r : Fin 32000) (q : Fin 4096) :
    refTable a0 a2 a3 a4 a5 (ix2 r q)
      = ∑ j : Fin 512, Cert.Mlp.elu (Cert.Mlp.normed (Cert.Mlp.hidden (fun k => a0 (ix2 r k)) (fun j k => a2 (ix2 j k)))
          (fun j => a4 (ix1 j)) (fun j => a5 (ix1 j)) j) * a3 (ix2 q j) := by
  unfold refTable
  simp only [Host.dotGeneral]
  rw [Ideal.dotGeneral_apply,
    Cert.Lib.contraction_sum dT 512 dT_rank dT_size (refElu (refNormed (refHidden a0 a2) a4 a5)) a3 (ix2 r q)
      (fun j => refElu (refNormed (refHidden a0 a2) a4 a5) (ix2 r j)) (fun j => a3 (ix2 q j))
      (fun p => congrArg (refElu (refNormed (refHidden a0 a2) a4 a5)) (funext fun ax => Fin.ext (by
        match ax with
        | ⟨0, _⟩ => exact dT_l0 (ix2 r q) p
        | ⟨1, _⟩ => exact dT_l1 (ix2 r q) p)))
      (fun p => congrArg a3 (funext fun ax => Fin.ext (by
        match ax with
        | ⟨0, _⟩ => exact dT_r0 (ix2 r q) p
        | ⟨1, _⟩ => exact dT_r1 (ix2 r q) p)))]
  refine Finset.sum_congr rfl fun j _ => ?_
  rw [refElu_apply, refNormed_apply]
  simp only [refHidden_apply]

end Cert.ReferenceIdeal.RefValue
end
-- ==== Proof.LibRowGather3.lean ====
/-
  Rows of a table gathered at a two-dimensional array of integer indices, read at one element.

  The table has `N` rows of `C` entries; the start indices are an `A × B × 1` array of machine integers, the last
  axis holding the one component of each start index; the result is `A × B × C`.

  This is what `table[idx]` lowers to for a two-dimensional `idx`: the row axis of the table is collapsed, its column
  axis is the one offset axis and lands last in the result, and the start index names a row.  Read at `(a, b, k)`
  the result is the table's entry `k` of the row the index at `(a, b)` names — that index read as a signed integer
  and clamped into `[0, N - 1]`, as a gather clamps every start index so that its slice fits.

  With it goes the reading of the `A × B × 1` start-index array itself when it is an `A × B` array given a trailing
  axis of extent one.
-/
import Idealize.ShloMosaic.PureOps.Ideal
import Idealize.ShloMosaic.Lib.ValueIdx

noncomputable section

namespace Cert.Lib

open Idealize.ShloMosaic Idealize.ShloMosaic.ValueIdx

/-- The dimension numbers of a gather of rows at a two-dimensional index array: operand `N × C`, start indices
    `A × B × 1`, result `A × B × C`.  The conditions on them are an argument, decided on a program's literal shapes. -/
abbrev rowGather3Dims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- THE ROW GATHER READ AT `(a, b, k)`: entry `k` of the row that the index at `(a, b)` names, read signed and
    clamped into `[0, N - 1]`. -/
theorem gather_rows3_apply {α : Type} {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (k : Fin C) :
    Host.gather (rowGather3Dims N A B C wf) x idx (ix3 a b k)
      = x (ix2 ⟨min (idx (ix3 a b (0 : Fin 1))).toInt.toNat (N - 1), by omega⟩ k) := by
  unfold Host.gather
  congr 1
  funext c
  refine Fin.ext ?_
  -- the operand index on axis `c`: clamped start + batching coordinate + offset coordinate
  show (rowGather3Dims N A B C wf).start (ix3 a b k) idx c + (rowGather3Dims N A B C wf).batchCoord (ix3 a b k) c
      + (rowGather3Dims N A B C wf).offCoord (ix3 a b k) c = _
  rw [GatherDims.batchCoord_eq_zero _ _ _ List.not_mem_nil]
  match c with
  | ⟨0, _⟩ =>
    -- the row axis is collapsed: no offset, and the start is the clamped index
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGather3Dims N A B C wf).startIndexMap from List.mem_singleton.mpr rfl)]
    have hsi : (rowGather3Dims N A B C wf).siIdx (ix3 a b k)
        ⟨List.idxOf (⟨0, by decide⟩ : Fin 2) (rowGather3Dims N A B C wf).startIndexMap,
          List.idxOf_lt_length_iff.2 (List.mem_singleton.mpr rfl)⟩ = ix3 a b (0 : Fin 1) := by
      funext e; refine Fin.ext ?_
      match e with
      | ⟨0, _⟩ => rfl
      | ⟨1, _⟩ => rfl
      | ⟨2, _⟩ => rfl
    rw [hsi]
    rfl
  | ⟨1, _⟩ =>
    -- the column axis is not in the start index map: the start is 0 and the offset is the result's last coordinate
    show (rowGather3Dims N A B C wf).start (ix3 a b k) idx (1 : Fin 2) + 0
        + (rowGather3Dims N A B C wf).offCoord (ix3 a b k) (1 : Fin 2) = k.val
    have hs : (rowGather3Dims N A B C wf).start (ix3 a b k) idx (1 : Fin 2) = 0 := by
      unfold GatherDims.start
      rw [dif_neg (show (1 : Fin 2) ∉ ([0] : List (Fin 2)) from by decide)]
    have hm : (1 : Fin 2) ∈ (rowGather3Dims N A B C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The index array given its trailing unit axis -/

/-- An `A × B` array given a trailing axis of extent one (how a two-dimensional index array becomes the `A × B × 1`
    array of start indices) reads, at `(a, b, 0)`, the array at `(a, b)`. -/
theorem bcast_unit_last_apply {α : Type} {A B : Nat}
    (h : (⟨2, ![A, B]⟩ : Shape).BroadcastsInDim ⟨3, ![A, B, 1]⟩ ![0, 1])
    (v : (⟨2, ![A, B]⟩ : Shape).Idx → α) (a : Fin A) (b : Fin B) :
    broadcastInDim ⟨3, ![A, B, 1]⟩ ![0, 1] h v (ix3 a b (0 : Fin 1)) = v (ix2 a b) := by
  simp only [broadcastInDim]
  congr 1
  funext c
  -- on each source axis: coordinate 0 if the axis has extent one, else the result's coordinate on the same axis
  match c with
  | ⟨0, _⟩ =>
    apply Fin.ext
    have ha := a.isLt
    split
    · next h1 => change A = 1 at h1; show (0 : Nat) = a.val; omega
    · rfl
  | ⟨1, _⟩ =>
    apply Fin.ext
    have hb := b.isLt
    split
    · next h1 => change B = 1 at h1; show (0 : Nat) = b.val; omega
    · rfl

end Cert.Lib

end
-- ==== Proof.RefGather.lean ====
/-
  The reference's result at one entry.

  The reference computes its whole table first and gathers afterwards: its result is the sum of two gathers of rows,
  one of the computed table and one of the second table, both at the same start indices — the ids, a negative one
  wrapped by the table height, as a `4 × 2048 × 1` array.  Read at `(b, s, q)` each gather is its table's entry `q`
  of the row the start index at `(b, s)` names, that index read signed and clamped into `[0, 31999]`; and the start
  index at `(b, s)` is the wrapped id at `(b, s)`.  So the row read is `rowOf` of the id, and the result is the two
  tables' entries at that row added.  The computed table stays folded: only an index is moved through the gathers.
-/
import proofs.«423969_j36627481100850_1_alg».proof.Proof.RefTerm
import proofs.«423969_j36627481100850_1_alg».proof.Proof.Spec
import proofs.«423969_j36627481100850_1_alg».proof.Proof.LibRowGather3
import Idealize.ShloMosaic.Lib.ValueIdx
noncomputable section
namespace Cert.ReferenceIdeal.RefValue
open Idealize.ShloMosaic Idealize.ShloMosaic.ValueIdx Cert.ReferenceIdeal

/-- The start index at `(b, s, 0)` is the id at `(b, s)`, a negative one wrapped by the table height. -/
theorem refIdx_apply (a6 : IVec S4x2048 32) (b : Fin 4) (s : Fin 2048) :
    refIdx a6 (ix3 b s (0 : Fin 1)) = Cert.Mlp.wrapIdx (a6 (ix2 b s)) := by
  unfold refIdx
  rw [Cert.Lib.bcast_unit_last_apply]
  -- the select, the comparison and the sum are entrywise, and a broadcast scalar reads the scalar everywhere
  rfl

/-- Either gather of the reference read at `(b, s, q)`: the gathered table at the row the id names, column `q`. -/
theorem refGather_apply (x : FVec Ideal S32000x4096 .f32) (a6 : IVec S4x2048 32) (b : Fin 4) (s : Fin 2048) (q : Fin 4096) :
    Host.gather gather_S32000x4096_S4x2048x1_S4x2048x4096_2_0_n_n_0_2_14096 x (refIdx a6) (ix3 b s q)
      = x (ix2 (Cert.Mlp.rowOf (a6 (ix2 b s))) q) := by
  have h := Cert.Lib.gather_rows3_apply (N := 32000) (A := 4) (B := 2048) (C := 4096) (by decide)
    Facts₀.gather_S32000x4096_S4x2048x1_S4x2048x4096_2_0_n_n_0_2_14096_wf x (refIdx a6) b s q
  -- the clamped, signed reading of the wrapped id is the row the id names, by definition
  have hr : (⟨min (refIdx a6 (ix3 b s (0 : Fin 1))).toInt.toNat (32000 - 1), by omega⟩ : Fin 32000)
      = Cert.Mlp.rowOf (a6 (ix2 b s)) := by
    refine Fin.ext ?_
    show min (refIdx a6 (ix3 b s (0 : Fin 1))).toInt.toNat (32000 - 1)
      = min (Cert.Mlp.wrapIdx (a6 (ix2 b s))).toInt.toNat 31999
    rw [refIdx_apply]
  exact h.trans (congrArg (fun r => x (ix2 r q)) hr)

/-- The reference's result at `(b, s, q)` from its table and the second table at the row the id names. -/
theorem refOut_gather (a0 : FVec Ideal S32000x768 .f32) (a1 : FVec Ideal S32000x4096 .f32) (a2 : FVec Ideal S512x768 .f32)
    (a3 : FVec Ideal S4096x512 .f32) (a4 a5 : FVec Ideal S512 .f32) (a6 : IVec S4x2048 32) (b : Fin 4) (s : Fin 2048) (q : Fin 4096) :
    refOut a0 a1 a2 a3 a4 a5 a6 (ix3 b s q)
      = refTable a0 a2 a3 a4 a5 (ix2 (Cert.Mlp.rowOf (a6 (ix2 b s))) q) + a1 (ix2 (Cert.Mlp.rowOf (a6 (ix2 b s))) q) := by
  unfold refOut
  rw [addf_apply, refGather_apply, refGather_apply]

end Cert.ReferenceIdeal.RefValue
end
-- ==== Proof.PreDecode.lean ====
/-
  What the stated domain says of the ids. The precondition is a conjunction of seven `all` tests — six that every
  float input is finite and a seventh that every id `w` satisfies `w ≥ −32000` and `w < 32000` as signed words —
  each a reduce by `and` from the constant 1. When the conjunction is 1, its last conjunct is 1; a reduce by `and`
  that came out 1 met only 1s; and the two comparisons being 1 at a position is exactly `InRange` of the id there.
-/
import proofs.«423969_j36627481100850_1_alg».proof.Proof.Gen.Pre_finite_inputs
import proofs.«423969_j36627481100850_1_alg».proof.Proof.Spec
import Idealize.ShloMosaic.Lib.ReduceAll
import Idealize.ShloMosaic.Lib.StableHlo.Predicate

noncomputable section

namespace Cert.Pre_finite_inputs.Decode

open Idealize.ShloMosaic Cert.Pre_finite_inputs Cert.Pre_finite_inputs.Facts

instance : Subsingleton S_.Idx := ⟨fun a b => funext fun d => d.elim0⟩

variable {F : FTy → Type} [FloatOps F]

/-- Under the precondition every id names a table row, counting from either end. -/
theorem ids_inRange (a0 : FVec F S32000x768 .f32) (a1 : FVec F S32000x4096 .f32) (a2 : FVec F S512x768 .f32)
    (a3 : FVec F S4096x512 .f32) (a4 a5 : FVec F S512 .f32) (a6 : IVec S4x2048 32)
    (h : fn (F := F) a0 a1 a2 a3 a4 a5 a6 = fun _ => 1#1) (i : S4x2048.Idx) : Cert.Mlp.InRange (a6 i) := by
  have h0 := congrFun h ValueIdx.ix0
  dsimp only [fn, fn_part1, fn_part2] at h0
  obtain ⟨_, h1⟩ := IntOp.andi_eq_one.1 h0
  have h2 := Host.reduce_andi_all _ _ _ _ _ h1 i
  obtain ⟨hge, hlt⟩ := IntOp.andi_eq_one.1 h2
  refine Cert.Mlp.inRange_of_cmp ?_ ?_
  · have e : broadcastInDim S4x2048 ![] bcast_S_S4x2048 (constantI S_ 32 4294935296#32) i = 4294935296#32 :=
      StableHlo.Predicate.bcast_scalar bcast_S_S4x2048 h_S_ _ i
    have := hge
    unfold cmpi at this
    rw [e] at this
    exact this
  · have e : broadcastInDim S4x2048 ![] bcast_S_S4x2048 (constantI S_ 32 32000#32) i = 32000#32 :=
      StableHlo.Predicate.bcast_scalar bcast_S_S4x2048 h_S_ _ i
    have := hlt
    unfold cmpi at this
    rw [e] at this
    exact this

end Cert.Pre_finite_inputs.Decode

end
-- ==== Proof.lean ====
/-
  Per token id, both programs read one row of a 32000 × 768 table and one row of a 32000 × 4096 table and compute

      out = ELU (LayerNorm (row · w1ᵀ)) · w2ᵀ + second-table row

  on the extended reals. The kernel gathers the 8192 rows first and runs the chain on blocks of 256 rows; the
  reference runs the chain over the whole first table and gathers afterwards. The chain acts on each row by itself,
  so the two agree as soon as they read the same rows.

  The ids. A negative id is wrapped by the table height on both sides. The kernel's gather then FILLS a row whose
  wrapped id lies outside `[0, 31999]`, while the reference's gather CLAMPS it into the table, so outside
  `−32000 ≤ id < 32000` the two results differ; the stated domain is exactly that range, on which nothing is filled
  and nothing is clamped (Spec.lean, PreDecode.lean). Finiteness of the float inputs is not used: every sum is the
  same sum of the same terms on both sides.

  The modules: Spec.lean (the row function and the id facts), KerPayload.lean (the kernel body at an entry),
  KerHost.lean (the gathered arrays the region stages), KerValue.lean (the kernel's result array), RefTerm.lean /
  RefRun.lean (the reference's composed term and its run), RefTable.lean and RefGather.lean (that term at an entry),
  PreDecode.lean (what the precondition says of the ids).
-/
import proofs.«423969_j36627481100850_1_alg».proof.Defs
import proofs.«423969_j36627481100850_1_alg».proof.Proof.Gen.Kernel
import proofs.«423969_j36627481100850_1_alg».proof.Proof.Gen.Kernel.Frame
import proofs.«423969_j36627481100850_1_alg».proof.Proof.Gen.KernelIdeal
import proofs.«423969_j36627481100850_1_alg».proof.Proof.Gen.KernelIdeal.Frame
import proofs.«423969_j36627481100850_1_alg».proof.Proof.Gen.ReferenceIdeal
import proofs.«423969_j36627481100850_1_alg».proof.Proof.Gen.Pre_finite_inputs
import proofs.«423969_j36627481100850_1_alg».proof.Proof.KerValue
import proofs.«423969_j36627481100850_1_alg».proof.Proof.RefRun
import proofs.«423969_j36627481100850_1_alg».proof.Proof.RefTable
import proofs.«423969_j36627481100850_1_alg».proof.Proof.RefGather
import proofs.«423969_j36627481100850_1_alg».proof.Proof.PreDecode

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Flat position `2048 b + s` holds the id at `(b, s)`. -/
theorem idAt_flat (m : (ℓ : Loc Cert.KernelIdeal.nD Cert.KernelIdeal.τ Cert.KernelIdeal.sig) → Buf (Elt Ideal) ℓ)
    (c : Dev Cert.KernelIdeal.nD) (b : Fin 4) (s : Fin 2048) (h : 2048 * b.val + s.val < 8192) :
    Cert.KernelIdeal.HostValue.idAt m c ⟨2048 * b.val + s.val, h⟩
      = (m ((c : Thread Cert.KernelIdeal.nD Cert.KernelIdeal.τ).loc Cert.KernelIdeal.main_arg6) : Cert.KernelIdeal.S4x2048.Idx → BitVec 32) (ix2 b s) := by
  unfold Cert.KernelIdeal.HostValue.idAt
  congr 1
  have hs := s.isLt
  have e0 : (2048 * b.val + s.val) / 2048 = b.val := by omega
  have e1 : (2048 * b.val + s.val) % 2048 = s.val := by omega
  funext a
  apply Fin.ext
  match a with
  | ⟨0, _⟩ => exact e0
  | ⟨1, _⟩ => exact e1

/-- On ids in range both programs end with the row function of the table rows each id names, at every entry. -/
theorem algebraic : Cert.algebraic_KernelIdeal_ReferenceIdeal := by
  intro m ρ m' ρ' hpre hagree
  have hin : ∀ (c : Dev Cert.KernelIdeal.nD) (n : Fin 8192), Cert.Mlp.InRange (Cert.KernelIdeal.HostValue.idAt m c n) :=
    fun c n => Cert.Pre_finite_inputs.Decode.ids_inRange _ _ _ _ _ _ _ (hpre c) _
  refine ⟨fun c => Cert.KernelIdeal.KerValue.result m c, Cert.KernelIdeal.KerValue.run m ρ hin, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6⟩ := hagree c
  rw [h0, h1, h2, h3, h4, h5, h6]
  funext i
  obtain ⟨b, s, q, rfl⟩ : ∃ (b : Fin 4) (s : Fin 2048) (q : Fin 4096), i = ix3 b s q := ⟨i 0, i 1, i 2, eq_ix3 i⟩
  rw [Cert.ReferenceIdeal.RefValue.refOut_gather, Cert.ReferenceIdeal.RefValue.refTable_apply]
  show _ = Cert.KernelIdeal.KerValue.rowFlat m c ⟨2048 * b.val + s.val, _⟩ q
  unfold Cert.KernelIdeal.KerValue.rowFlat
  rw [idAt_flat m c b s]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
